-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF61B1E6#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x2048 .f32) (main_arg1 : IVec S8192 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 2048#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x2048 : Shape := ⟨2, ![8192, 2048]⟩
abbrev S8192 : Shape := ⟨1, ![8192]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩
abbrev S_ : Shape := ⟨0, ![]⟩
abbrev S1x8192 : Shape := ⟨2, ![1, 8192]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩

abbrev nBuf : Space → Nat
  | .hbm => 28
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S8192x1, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192x1, .i1⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S1x8192, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S1024x1, .f32⟩
  | .local _ .vmem, ⟨9, _⟩ => ⟨S1024x1, .f32⟩
  | .local _ .vmem, ⟨10, _⟩ => ⟨S1x2048, .f32⟩
  | .local _ .vmem, ⟨11, _⟩ => ⟨S1x2048, .f32⟩
  | .local _ .vmem, ⟨12, _⟩ => ⟨S1024x1, .f32⟩
  | .local _ .vmem, ⟨13, _⟩ => ⟨S1024x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S8192_S8192x1 : S8192.ShapeCasts S8192x1
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x2048_d1_w32 : S256x2048.Iotas .tc 32 [1]
  broadcasts_S256x1_S256x2048 : S256x1.Broadcasts S256x2048
  reduces_S256x2048_S256 : S256x2048.Reduces [1] S256
  shapeCasts_S256_S256x1 : S256.ShapeCasts S256x1
  bcast_S_S8192 : S_.BroadcastsInDim S8192 (![] : Fin 0 → Fin S8192.rank)
  bcast_S_S8192x1 : S_.BroadcastsInDim S8192x1 (![] : Fin 0 → Fin S8192x1.rank)
  shapeCasts_S8192x1_S1x8192 : S8192x1.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reducesTo_S8192x1_S_d0_1 : S8192x1.ReducesTo [0, 1] S_
  h_S_ : 0 < S_.numel
  reducesTo_S8192_S_d0 : S8192.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .f32 = 32 ∨ (Rect.block (s := S1x8192) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S8192 : Shape := ⟨1, ![8192]⟩
abbrev S_ : Shape := ⟨0, ![]⟩
abbrev S2048 : Shape := ⟨1, ![2048]⟩
abbrev S8192x1 : Shape := ⟨2, ![8192, 1]⟩
abbrev S8192x2 : Shape := ⟨2, ![8192, 2]⟩
abbrev S1x2048 : Shape := ⟨2, ![1, 2048]⟩
abbrev S1x8192 : Shape := ⟨2, ![1, 8192]⟩
abbrev S8192x8192 : Shape := ⟨2, ![8192, 8192]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192, .i32⟩
  | .hbm, ⟨11, _⟩ => ⟨S2048, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x1, .i32⟩
  | .hbm, ⟨28, _⟩ => ⟨S8192x2, .i32⟩
  | .hbm, ⟨29, _⟩ => ⟨S8192, .f32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S1x2048, .i32⟩
  | .hbm, ⟨34, _⟩ => ⟨S8192x1, .i32⟩
  | .hbm, ⟨35, _⟩ => ⟨S8192x2048, .i32⟩
  | .hbm, ⟨36, _⟩ => ⟨S8192x2048, .i32⟩
  | .hbm, ⟨37, _⟩ => ⟨S8192x2048, .i1⟩
  | .hbm, ⟨38, _⟩ => ⟨S1x2048, .i32⟩
  | .hbm, ⟨39, _⟩ => ⟨S_, .i32⟩
  | .hbm, ⟨40, _⟩ => ⟨S1x2048, .i32⟩
  | .hbm, ⟨41, _⟩ => ⟨S1x2048, .i1⟩
  | .hbm, ⟨42, _⟩ => ⟨S8192x2048, .i1⟩
  | .hbm, ⟨43, _⟩ => ⟨S8192x2048, .i1⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S1x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .i1⟩
  | .hbm, ⟨60, _⟩ => ⟨S8192x1, .i1⟩
  | .hbm, ⟨61, _⟩ => ⟨S8192x8192, .i1⟩
  | .hbm, ⟨62, _⟩ => ⟨S8192x8192, .i1⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S_, .f32⟩
  | .hbm, ⟨69, _⟩ => ⟨S8192, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_call0_v0 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_call1_v0 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S8192x1_S8192x2048_0_1 : S8192x1.BroadcastsInDim S8192x2048 (![0, 1] : Fin 2 → Fin S8192x2048.rank)
  bcast_S_S1x2048 : S_.BroadcastsInDim S1x2048 (![] : Fin 0 → Fin S1x2048.rank)
  reducesTo_S8192x2048_S8192_d1 : S8192x2048.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  natLt_1_32 : 1 < 32
  reducesTo_S8192_S_d0 : S8192.ReducesTo [0] S_
  gather_S8192x2048_S8192x2_S8192_n_01_n_n_01_1_11_wf : GatherDims.WF S8192x2048 S8192x2 S8192 [] [0, 1] [] [0, 1] [] 1 ![1, 1]

variable [Facts₀]

def gather_S8192x2048_S8192x2_S8192_n_01_n_n_01_1_11 : GatherDims S8192x2048 S8192x2 S8192 where
  offsetDims := []
  collapsedSliceDims := [0, 1]
  operandBatchingDims := []
  startIndicesBatchingDims := []
  startIndexMap := [0, 1]
  indexVectorDim := 1
  sliceSizes := ![1, 1]
  wf := gather_S8192x2048_S8192x2_S8192_n_01_n_n_01_1_11_wf

class Facts : Prop extends Facts₀ where

variable [Facts]
-- ==== Proof.Spec.lean ====
/-
  The two programs' results as pure functions of the logits and the labels, over the extended reals.

  `x r c` is the logit of row `r` (of 8192) and class `c` (of 2048); `yc r` is the label of row `r`, a class
  index (the precondition puts every label in range). A row is VALID when its label is not the unknown class `0`;
  a class is MASKED for a row when it is the row's label or the unknown class.

  The kernel computes, per row, the logistic of the labelled logit (as the sum over the classes of the logits
  selected by "class = label") and the logistic of the largest unmasked logit (the masked ones filled with the
  bottom element before the maximum); then, for every pair (row r, row q), the square of
  `min (adj r - neg q) 0`, where `adj r` is `pos r - γ` on a valid row and a large constant otherwise, summed
  first over q in four groups of 2048 and then over r; the loss divides by the count of valid rows plus one and by
  8193.

  The reference takes the logistic of every logit first, reads the labelled one, takes the largest unmasked
  one with the masked ones filled by `0`, forms the margin `pos r - neg q - γ`, and sums the squared margins
  that are negative on valid rows; it divides by the same count plus one and by `8192 + 1`.
-/
import Idealize.ShloMosaic.PureOps.Ideal
import Idealize.ShloMosaic.Lib.ValueIdx

noncomputable section

open scoped BigOperators

namespace Cert.Auc

open Idealize.ShloMosaic

/-- The margin `γ`: the binary32 value nearest `0.3`, the same word in both programs. -/
def gama : EReal := Ideal.ofBits .f32 0x3E99999A#32
/-- The kernel's stand-in for "no positive" on an invalid row: `10^9`. -/
def big : EReal := Ideal.ofBits .f32 0x4E6E6B28#32
/-- `8193`, `8192` and `1` as the programs spell them. -/
def c8193 : EReal := Ideal.ofBits .f32 0x46000400#32
def c8192 : EReal := Ideal.ofBits .f32 0x46000000#32
def c1 : EReal := Ideal.ofBits .f32 0x3F800000#32

/-- Row `jb * 2048 + l`: the `l`-th row of the `jb`-th group of 2048. -/
def col (jb : Fin 4) (l : Fin 2048) : Fin 8192 := ⟨jb.val * 2048 + l.val, by omega⟩

/-- The sum, over all rows `q` taken in four groups of 2048, of the squared negative part of `A r - N q`. -/
def rowAcc (A N : Fin 8192 → EReal) (r : Fin 8192) : EReal :=
  ∑ jb : Fin 4, ∑ l : Fin 2048, min (A r - N (col jb l)) 0 * min (A r - N (col jb l)) 0

section
variable (x : Fin 8192 → Fin 2048 → EReal) (yc : Fin 8192 → Fin 2048)

/-! ## The kernel's side -/

/-- The logistic of the labelled logit, the label picked out by a sum of selected logits. -/
def kpos (r : Fin 8192) : EReal := Ideal.logistic (∑ c : Fin 2048, if c = yc r then x r c else 0)

/-- The logistic of the largest unmasked logit: masked classes are filled with `⊥` before the maximum. -/
def kneg (r : Fin 8192) : EReal :=
  Ideal.logistic ((Finset.univ : Finset (Fin 2048)).fold max ⊥ fun c => if c = yc r ∨ c = 0 then ⊥ else x r c)

/-- `pos r - γ` on a valid row, the large constant on an invalid one. -/
def kadj (r : Fin 8192) : EReal := if yc r ≠ 0 then kpos x yc r - gama else big

/-- The number of valid rows, as a sum of ones. -/
def kcnt : EReal := ∑ r : Fin 8192, if yc r ≠ 0 then (1 : EReal) else 0

/-- The kernel's loss. -/
def kloss : EReal :=
  Ideal.div (Ideal.div (∑ r : Fin 8192, rowAcc (kadj x yc) (kneg x yc) r) (kcnt yc + c1)) c8193

/-! ## The reference's side -/

/-- The logistic of the labelled logit. -/
def rpos (r : Fin 8192) : EReal := Ideal.logistic (x r (yc r))

/-- The largest logistic over the unmasked classes: masked classes are filled with `0`. -/
def rneg (r : Fin 8192) : EReal :=
  (Finset.univ : Finset (Fin 2048)).fold max ⊥ fun c => if c = yc r ∨ c = 0 then 0 else Ideal.logistic (x r c)

/-- The margin of the pair (row `r`, row `q`). -/
def rmargin (r q : Fin 8192) : EReal := rpos x yc r - rneg x yc q - gama

/-- The squared margin where it is negative and the row valid, else `0`. -/
def rterm (r q : Fin 8192) : EReal :=
  if rmargin x yc r q < 0 ∧ yc r ≠ 0 then rmargin x yc r q * rmargin x yc r q else 0

/-- The sum over all pairs. -/
def rsum : EReal := ∑ r : Fin 8192, ∑ q : Fin 8192, rterm x yc r q

/-- The reference's loss. -/
def rloss : EReal := Ideal.div (Ideal.div (rsum x yc) (kcnt yc + c1)) (c8192 + c1)

end

/-- Two class indices are equal when their 32-bit words are. -/
theorem ofNat_eq_iff (a b : Fin 2048) : BitVec.ofNat 32 a.val = BitVec.ofNat 32 b.val ↔ a = b := by
  constructor
  · intro h
    have h2 := congrArg BitVec.toNat h
    simp only [BitVec.toNat_ofNat] at h2
    have ha := a.isLt
    have hb := b.isLt
    apply Fin.ext
    omega
  · rintro rfl
    rfl

end Cert.Auc

end
-- ==== Proof.KVal0.lean ====
/-
  Region 0 of the idealized kernel (the per-row reduction), read as values: the two output arrays after the
  region, row by row, in terms of the arrays the region is entered with.

  First the body's two stored values at one row of a block: the label mask at a lane is "lane number = label word",
  the masked sum over the lanes is a sum of an `if`, the masked maximum a fold of `max` over an `if` whose fill
  is the bottom element. Then the blocks: every window's block at point `t` is rows `256 t … 256 t + 255` of its
  array, so what point `t` writes back is block `t` of one function of the row, and row `r` is written by
  point `r / 256`.
-/
import proofs.«423340_j3289944948924_2_alg».proof.Proof.Gen.KernelIdeal.Frame
import proofs.«423340_j3289944948924_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.Auc.K0

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## Words and indices -/

/-- The bit of a word comparison is set exactly when the words are equal. -/
theorem cmpi_eq_one_iff {w : Nat} (a b : BitVec w) : IntOp.cmpi .eq a b = 1#1 ↔ a = b := by
  show BitVec.ofBool (a == b) = 1#1 ↔ a = b
  by_cases h : a = b
  · subst h; simp
  · have hb : (a == b) = false := beq_eq_false_iff_ne.mpr h
    rw [hb]
    exact ⟨fun e => absurd e (by decide), fun e => absurd e h⟩

/-- The disjunction of two bits is set exactly when one of them is. -/
theorem ori_eq_one_iff (x y : BitVec 1) : IntOp.ori x y = 1#1 ↔ x = 1#1 ∨ y = 1#1 := by
  show x ||| y = 1#1 ↔ _
  rcases BitVec.eq_zero_or_eq_one x with rfl | rfl <;> rcases BitVec.eq_zero_or_eq_one y with rfl | rfl <;> decide

/-- A select on the bit of a word comparison is the `if` on the equation. -/
theorem select_cmpi_eq {α : Type} {w : Nat} (a b : BitVec w) (u v : α) :
    Scalar.select (IntOp.cmpi .eq a b) u v = if a = b then u else v := by
  unfold Scalar.select
  exact if_congr (cmpi_eq_one_iff a b) rfl rfl

/-- A select on the disjunction of two comparison bits is the `if` on the disjunction. -/
theorem select_ori_cmpi_eq {α : Type} {w : Nat} (a b c : BitVec w) (u v : α) :
    Scalar.select (IntOp.ori (IntOp.cmpi .eq a b) (IntOp.cmpi .eq a c)) u v = if a = b ∨ a = c then u else v := by
  unfold Scalar.select
  exact if_congr ((ori_eq_one_iff _ _).trans (or_congr (cmpi_eq_one_iff a b) (cmpi_eq_one_iff a c))) rfl rfl

/-- The row-major position of `(p, 0)` in a column of 256 is that of `p` in a vector of 256. -/
theorem col_pos (p : Fin 256) : (S256.rowMajor (ix1 p)).val = (S256x1.rowMajor (ix2 p (0 : Fin 1))).val := by
  rw [Shape.rowMajor_val_one, Shape.rowMajor_val_two]
  show p.val = p.val * 1 + 0
  omega

/-- Inserting lane `k` into the reduced index `p` gives the index `(p, k)`. -/
theorem lift_eq (h : S256x2048.Reduces [1] S256) (p : Fin 256) (k : Fin 2048) :
    h.lift (ix1 p) k = ix2 p k := by
  funext a; apply Fin.ext
  match a with
  | ⟨0, _⟩ => rfl
  | ⟨1, _⟩ => rfl

/-- The label mask at `(p, k)`: lane `k`'s number against row `p`'s label word. -/
theorem pay1_apply (x1 : Vec Ideal S256x1 .i32) (p : Fin 256) (k : Fin 2048) :
    k0_pay1 (F := Ideal) x1 (ix2 p k) = IntOp.cmpi .eq (BitVec.ofNat 32 k.val) (x1 (ix2 p 0)) := by
  unfold k0_pay1
  simp only [shapeCast_self]
  show IntOp.cmpi .eq (iota .tc S256x2048 32 [1] _ (ix2 p k)) (broadcastTo S256x2048 x1 _ (ix2 p k)) = _
  rw [iota_single_apply, broadcastTo_apply x1 _ (ix2 p k) (ix2 p 0) (fun a => by
    match a with
    | ⟨0, _⟩ => rfl
    | ⟨1, _⟩ => rfl)]

/-! ## The body's two stored values at a row -/

/-- The binary32 word of minus infinity denotes the bottom element. -/
theorem neg_inf_word : Ideal.ofBits .f32 0xFF800000#32 = (⊥ : EReal) := by simp [Ideal.ofBits, Ideal.ieee]

/-- The named fill of the masked classes denotes the bottom element. -/
theorem neg_big_bot : Named.named (F := Ideal) Cert.KernelIdeal.κ "neg_big" (φ := .f32) 0xFF61B1E6#32 = (⊥ : EReal) :=
  IdealRules.named_const.ideal_named_scalar _ _ _ _ rfl

/-- The first payload at row `p`: the logistic of the sum over the lanes of the logits the label mask selects. -/
theorem pay2_apply (x0 : Vec Ideal S256x2048 .f32) (x1 : Vec Ideal S256x1 .i32) (p : Fin 256) :
    k0_pay2 (F := Ideal) x0 x1 (ix2 p 0)
      = Ideal.logistic (∑ k : Fin 2048, if BitVec.ofNat 32 k.val = x1 (ix2 p 0) then x0 (ix2 p k) else 0) := by
  unfold k0_pay2
  show Ideal.logistic (shapeCast S256x1 _ _ (ix2 p 0)) = _
  rw [shapeCast_apply _ _ (ix2 p 0) (ix1 p) (col_pos p)]
  refine congrArg Ideal.logistic ((Ideal.multiReduction_add_single _ _ _ _ _ (ix1 p)).trans ?_)
  refine Finset.sum_congr rfl ?_
  intro (k : Fin 2048) _
  refine (congrArg (select (k0_pay1 x1) x0 _) (lift_eq _ p k)).trans ?_
  show Scalar.select (k0_pay1 x1 (ix2 p k)) (x0 (ix2 p k)) (Ideal.ofBits .f32 0x00000000#32) = _
  rw [pay1_apply, select_cmpi_eq, Ideal.ofBits_zero_f32]

/-- The second payload at row `p`: the logistic of the largest logit over the lanes, the label's lane and lane `0`
    filled with the bottom element. -/
theorem pay3_apply (x0 : Vec Ideal S256x2048 .f32) (x1 : Vec Ideal S256x1 .i32) (p : Fin 256) :
    k0_pay3 (F := Ideal) x0 x1 (ix2 p 0)
      = Ideal.logistic ((Finset.univ : Finset (Fin 2048)).fold max ⊥ fun k =>
          if (BitVec.ofNat 32 k.val = x1 (ix2 p 0) ∨ BitVec.ofNat 32 k.val = 0#32) then ⊥ else x0 (ix2 p k)) := by
  unfold k0_pay3
  dsimp only
  rw [show ∀ v : FVec Ideal S256x1 .f32, logistic v (ix2 p 0) = Ideal.logistic (v (ix2 p 0)) from fun _ => rfl]
  rw [shapeCast_apply _ _ (ix2 p 0) (ix1 p) (col_pos p)]
  refine congrArg Ideal.logistic ((Ideal.multiReduction_maximumf_single _ _ _ _ _ (ix1 p)).trans ?_)
  rw [Ideal.ofBits_def, neg_inf_word]
  refine congrArg (fun f : Fin 2048 → EReal => Finset.fold max ⊥ f Finset.univ) (funext fun (k : Fin 2048) => ?_)
  refine (congrArg (select _ _ x0) (lift_eq _ p k)).trans ?_
  show Scalar.select (IntOp.ori (k0_pay1 x1 (ix2 p k)) (IntOp.cmpi .eq (iota .tc S256x2048 32 [1] _ (ix2 p k)) 0#32))
      (Named.named (F := Ideal) Cert.KernelIdeal.κ "neg_big" (φ := .f32) 0xFF61B1E6#32) (x0 (ix2 p k)) = _
  rw [pay1_apply, iota_single_apply]
  show Scalar.select (IntOp.ori (IntOp.cmpi .eq (BitVec.ofNat 32 k.val) (x1 (ix2 p 0))) (IntOp.cmpi .eq (BitVec.ofNat 32 k.val) 0#32)) _ _ = _
  rw [select_ori_cmpi_eq, neg_big_bot]

/-! ## From blocks to the arrays -/

variable (V : (c : Dev nD) → (b : Ref sig .tc) → Buf (Elt Ideal) ((c : Thread nD τ).loc b))

theorem zero_off : (![0, 0] : Fin 2 → Nat) = fun _ => 0 := funext fun a => by fin_cases a <;> rfl

/-- The block index of every window at point `t` is `(t, 0)`, decided over the 32 points. -/
theorem blk_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The logits' block at point `t` is rows `256 t … 256 t + 255` of the logits. -/
theorem logits_blk (c : Dev nD) (t : Fin cfg0.N) (x : S256x2048.Idx) (i : S8192x2048.Idx)
    (h0 : (i 0).val = 256 * t.val + (x 0).val) (h1 : (i 1).val = (x 1).val) :
    (iblk0 (F := Ideal) V c 0 t : Vec Ideal S256x2048 .f32) x = (V c main_arg0 : S8192x2048.Idx → EReal) i := by
  obtain ⟨e00, e01, -, -, -, -, -, -⟩ := blk_index t
  unfold iblk0
  rw [View.read_apply]
  show (V c main_arg0 : S8192x2048.Idx → EReal) _ = V c main_arg0 i
  congr 1
  funext a
  apply Fin.ext
  match a with
  | ⟨0, _⟩ => show win0_0.index t (0 : Fin 2) * 256 + 1 * (x 0).val = (i 0).val; rw [e00, h0]; omega
  | ⟨1, _⟩ => show win0_0.index t (1 : Fin 2) * 2048 + 1 * (x 1).val = (i 1).val; rw [e01, h1]; omega

/-- The labels' block at point `t` is rows `256 t … 256 t + 255` of the label column. -/
theorem labels_blk (c : Dev nD) (t : Fin cfg0.N) (x : S256x1.Idx) (i : S8192x1.Idx)
    (h0 : (i 0).val = 256 * t.val + (x 0).val) (h1 : (i 1).val = (x 1).val) :
    (iblk0 (F := Ideal) V c 1 t : Vec Ideal S256x1 .i32) x = (V c main_v0 : S8192x1.Idx → BitVec 32) i := by
  obtain ⟨-, -, e10, e11, -, -, -, -⟩ := blk_index t
  unfold iblk0
  rw [View.read_apply]
  show (V c main_v0 : S8192x1.Idx → BitVec 32) _ = V c main_v0 i
  congr 1
  funext a
  apply Fin.ext
  match a with
  | ⟨0, _⟩ => show win0_1.index t (0 : Fin 2) * 256 + 1 * (x 0).val = (i 0).val; rw [e10, h0]; omega
  | ⟨1, _⟩ => show win0_1.index t (1 : Fin 2) * 1 + 1 * (x 1).val = (i 1).val; rw [e11, h1]; omega

/-- A row of the kernel's first payload whose block row `p` is row `r` of the logits `A`, with the label word of `yc r`,
    is `kpos` at `r`. -/
theorem pos_point (x0 : Vec Ideal S256x2048 .f32) (x1 : Vec Ideal S256x1 .i32) (A : S8192x2048.Idx → EReal)
    (yc : Fin 8192 → Fin 2048) (p : Fin 256) (r : Fin 8192)
    (h0 : ∀ k : Fin 2048, x0 (ix2 p k) = A (ix2 r k))
    (h1 : x1 (ix2 p 0) = BitVec.ofNat 32 (yc r).val) :
    k0_pay2 (F := Ideal) x0 x1 (ix2 p 0) = Cert.Auc.kpos (fun r k => A (ix2 r k)) yc r := by
  rw [pay2_apply, h1]
  unfold Cert.Auc.kpos
  refine congrArg Ideal.logistic (Finset.sum_congr rfl fun k _ => ?_)
  exact if_congr (Cert.Auc.ofNat_eq_iff k (yc r)) (h0 k) rfl

/-- The same for the second payload and `kneg`. -/
theorem neg_point (x0 : Vec Ideal S256x2048 .f32) (x1 : Vec Ideal S256x1 .i32) (A : S8192x2048.Idx → EReal)
    (yc : Fin 8192 → Fin 2048) (p : Fin 256) (r : Fin 8192)
    (h0 : ∀ k : Fin 2048, x0 (ix2 p k) = A (ix2 r k))
    (h1 : x1 (ix2 p 0) = BitVec.ofNat 32 (yc r).val) :
    k0_pay3 (F := Ideal) x0 x1 (ix2 p 0) = Cert.Auc.kneg (fun r k => A (ix2 r k)) yc r := by
  rw [pay3_apply, h1]
  unfold Cert.Auc.kneg
  refine congrArg Ideal.logistic (congrArg (fun f : Fin 2048 → EReal => Finset.fold max ⊥ f Finset.univ) (funext fun (k : Fin 2048) => ?_))
  exact if_congr (or_congr (Cert.Auc.ofNat_eq_iff k (yc r)) (Cert.Auc.ofNat_eq_iff k 0)) rfl (h0 k)

/-- What point `t` writes back to the first output is block `t` of `kpos` row by row. -/
theorem pos_flushed (c : Dev nD) (yc : Fin 8192 → Fin 2048)
    (hy : ∀ r : Fin 8192, (V c main_v0 : S8192x1.Idx → BitVec 32) (ix2 r 0) = BitVec.ofNat 32 (yc r).val)
    (t : Fin cfg0.N) :
    (dat0 (F := Ideal) V c).flushed 2 t = ((cfg0.win 2).blk t).view.read (Elt Ideal)
      (fun i : S8192x1.Idx => Cert.Auc.kpos (fun r k => (V c main_arg0 : S8192x2048.Idx → EReal) (ix2 r k)) yc (i 0)) := by
  show (cfg0.win 2).cut (grid0.coords t) ((dat0 (F := Ideal) V c).after 2 t) = _
  rw [after0_2]
  unfold out0_2
  rw [View.canon_unit_zero zero_off]
  simp only [View.ld_unit_zero (S := S256x2048) zero_off, View.ld_unit_zero (S := S256x1) zero_off]
  obtain ⟨-, -, -, -, e20, e21, -, -⟩ := blk_index t
  have hN : cfg0.N = 32 := N_0
  have ht : t.val < 32 := hN ▸ t.isLt
  funext j
  have hj0 : (j 0).val < 256 := (j 0).isLt
  have hj1 : (j 1).val < 1 := (j 1).isLt
  rw [View.read_apply]
  have hx : (cfg0.win 2).xinj (grid0.coords t) j = ix2 (⟨(j 0).val, hj0⟩ : Fin 256) (0 : Fin 1) := by
    funext a; apply Fin.ext
    match a with
    | ⟨0, _⟩ => rfl
    | ⟨1, _⟩ => show (j 1).val = 0; omega
  show k0_pay2 (F := Ideal) (iblk0 V c 0 t) (iblk0 V c 1 t) ((cfg0.win 2).xinj (grid0.coords t) j) = _
  rw [hx]
  refine (pos_point (iblk0 V c 0 t) (iblk0 V c 1 t) (V c main_arg0) yc ⟨(j 0).val, hj0⟩ ⟨256 * t.val + (j 0).val, by omega⟩
    (fun k => logits_blk V c t _ _ rfl rfl) ((labels_blk V c t _ (ix2 _ 0) rfl rfl).trans (hy _))).trans ?_
  refine congrArg (Cert.Auc.kpos _ yc) (Fin.ext ?_)
  show 256 * t.val + (j 0).val = win0_2.index t (0 : Fin 2) * 256 + 1 * (j 0).val
  rw [e20]; omega
/-- What point `t` writes back to the second output is block `t` of `kneg` row by row. -/
theorem neg_flushed (c : Dev nD) (yc : Fin 8192 → Fin 2048)
    (hy : ∀ r : Fin 8192, (V c main_v0 : S8192x1.Idx → BitVec 32) (ix2 r 0) = BitVec.ofNat 32 (yc r).val)
    (t : Fin cfg0.N) :
    (dat0 (F := Ideal) V c).flushed 3 t = ((cfg0.win 3).blk t).view.read (Elt Ideal)
      (fun i : S8192x1.Idx => Cert.Auc.kneg (fun r k => (V c main_arg0 : S8192x2048.Idx → EReal) (ix2 r k)) yc (i 0)) := by
  show (cfg0.win 3).cut (grid0.coords t) ((dat0 (F := Ideal) V c).after 3 t) = _
  rw [after0_3]
  unfold out0_3
  rw [View.canon_unit_zero zero_off]
  simp only [View.ld_unit_zero (S := S256x2048) zero_off, View.ld_unit_zero (S := S256x1) zero_off]
  obtain ⟨-, -, -, -, -, -, e30, e31⟩ := blk_index t
  have hN : cfg0.N = 32 := N_0
  have ht : t.val < 32 := hN ▸ t.isLt
  funext j
  have hj0 : (j 0).val < 256 := (j 0).isLt
  have hj1 : (j 1).val < 1 := (j 1).isLt
  rw [View.read_apply]
  have hx : (cfg0.win 3).xinj (grid0.coords t) j = ix2 (⟨(j 0).val, hj0⟩ : Fin 256) (0 : Fin 1) := by
    funext a; apply Fin.ext
    match a with
    | ⟨0, _⟩ => rfl
    | ⟨1, _⟩ => show (j 1).val = 0; omega
  show k0_pay3 (F := Ideal) (iblk0 V c 0 t) (iblk0 V c 1 t) ((cfg0.win 3).xinj (grid0.coords t) j) = _
  rw [hx]
  refine (neg_point (iblk0 V c 0 t) (iblk0 V c 1 t) (V c main_arg0) yc ⟨(j 0).val, hj0⟩ ⟨256 * t.val + (j 0).val, by omega⟩
    (fun k => logits_blk V c t _ _ rfl rfl) ((labels_blk V c t _ (ix2 _ 0) rfl rfl).trans (hy _))).trans ?_
  refine congrArg (Cert.Auc.kneg _ yc) (Fin.ext ?_)
  show 256 * t.val + (j 0).val = win0_3.index t (0 : Fin 2) * 256 + 1 * (j 0).val
  rw [e30]; omega

/-- An index of the first output is in point `t`'s block iff each coordinate is in the block's range on its axis. -/
theorem mem_blk_pos (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v1_0).slice (win0_2.rect t)).set ↔ _
  rw [View.set_slice_whole, Rect.mem_set_unit]
  exact Iff.rfl

/-- The same for the second output. -/
theorem mem_blk_neg (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v1_1).slice (win0_3.rect t)).set ↔ _
  rw [View.set_slice_whole, Rect.mem_set_unit]
  exact Iff.rfl

/-- Row `r` of the first output is written back by point `r / 256`. -/
theorem pos_cover (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  have hN : cfg0.N = 32 := N_0
  obtain ⟨t, ht⟩ : ∃ t : Fin cfg0.N, t.val = (i 0).val / 256 := ⟨⟨(i 0).val / 256, by rw [hN]; omega⟩, rfl⟩
  obtain ⟨-, -, -, -, e20, e21, -, -⟩ := blk_index t
  refine ⟨t, flush0_2 t, ?_⟩
  rw [mem_blk_pos]
  intro a
  match a with
  | ⟨0, _⟩ => show win0_2.index t (0 : Fin 2) * 256 ≤ (i 0).val ∧ (i 0).val < win0_2.index t (0 : Fin 2) * 256 + 256; rw [e20, ht]; omega
  | ⟨1, _⟩ => show win0_2.index t (1 : Fin 2) * 1 ≤ (i 1).val ∧ (i 1).val < win0_2.index t (1 : Fin 2) * 1 + 1; rw [e21]; omega

/-- Row `r` of the second output is written back by point `r / 256`. -/
theorem neg_cover (i : S8192x1.Idx) :
    ∃ t : Fin cfg0.N, (cfg0.win 3).flush t = true ∧ i ∈ ((cfg0.win 3).blk t).view.set := by
  have hi0 : (i 0).val < 8192 := idx2_lt0 i
  have hi1 : (i 1).val < 1 := idx2_lt1 i
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, e30, e31⟩ := blk_index t
  refine ⟨t, flush0_3 t, ?_⟩
  rw [mem_blk_neg]
  intro a
  match a with
  | ⟨0, _⟩ => show win0_3.index t (0 : Fin 2) * 256 ≤ (i 0).val ∧ (i 0).val < win0_3.index t (0 : Fin 2) * 256 + 256; rw [e30, ht]; omega
  | ⟨1, _⟩ => show win0_3.index t (1 : Fin 2) * 1 ≤ (i 1).val ∧ (i 1).val < win0_3.index t (1 : Fin 2) * 1 + 1; rw [e31]; omega

/-- After region 0 the first output array holds, at row `r`, the logistic of the sum over the classes of the logits
    selected by "class = label": `kpos`. -/
theorem pos_arr (c : Dev nD) (yc : Fin 8192 → Fin 2048)
    (hy : ∀ r : Fin 8192, (V c main_v0 : S8192x1.Idx → BitVec 32) (ix2 r 0) = BitVec.ofNat 32 (yc r).val) :
    (dat0 (F := Ideal) V c).arrAt 2 cfg0.N
      = fun i : S8192x1.Idx => Cert.Auc.kpos (fun r k => (V c main_arg0 : S8192x2048.Idx → EReal) (ix2 r k)) yc (i 0) :=
  (dat0 (F := Ideal) V c).arrAt_eq_of_cover 2 _ (fun t _ => pos_flushed V c yc hy t) pos_cover

/-- After region 0 the second output array holds, at row `r`, the logistic of the largest logit of the row with the
    masked classes filled by `⊥`: `kneg`. -/
theorem neg_arr (c : Dev nD) (yc : Fin 8192 → Fin 2048)
    (hy : ∀ r : Fin 8192, (V c main_v0 : S8192x1.Idx → BitVec 32) (ix2 r 0) = BitVec.ofNat 32 (yc r).val) :
    (dat0 (F := Ideal) V c).arrAt 3 cfg0.N
      = fun i : S8192x1.Idx => Cert.Auc.kneg (fun r k => (V c main_arg0 : S8192x2048.Idx → EReal) (ix2 r k)) yc (i 0) :=
  (dat0 (F := Ideal) V c).arrAt_eq_of_cover 3 _ (fun t _ => neg_flushed V c yc hy t) neg_cover

end Cert.Auc.K0

end
-- ==== Proof.KVal1.lean ====
/-
  Region 1 of the idealized kernel (the pairwise accumulation), read as values: the output array after the
  region, row by row, in terms of the two arrays the region is entered with.
-/
import proofs.«423340_j3289944948924_2_alg».proof.Proof.Gen.KernelIdeal.Frame
import proofs.«423340_j3289944948924_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.Auc.K1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

section Pieces
variable {F : FTy → Type} [FloatOps F] [Named F]

/-- The zero offsets of a whole-block access. -/
theorem hz : (![0, 0] : Fin 2 → Nat) = fun _ => 0 := funext fun a => by fin_cases a <;> rfl

/-- A point that does not reset: over the output block `prev` the body leaves the update of `prev` by the row block `x0`
    and the column block `x1`. -/
theorem out_B (c : Dev nD) (i : grid1.Coords) (a2 : Memref sig .tc .vmem S1024x1 .f32) (h2 : a2.IsWhole)
    (a3 : Memref sig .tc .vmem S1x2048 .f32) (h3 : a3.IsWhole) (a4 : Memref sig .tc .vmem S1024x1 .f32) (h4 : a4.IsWhole)
    (hc : ¬cond1_0 i) (x0 : Vec F S1024x1 .f32) (x1 : Vec F S1x2048 .f32) (prev : Vec F S1024x1 .f32) :
    out1_B_2 c i a2 h2 a3 h3 a4 h4 hc x0 x1 prev = k1_pay2 x0 x1 prev := by
  unfold out1_B_2
  rw [View.read_writes_eq_canon _ _ _ (cover1_B_2 c i a2 h2 a3 h3 a4 h4 hc x0 x1 prev)]
  unfold kernelRun1_B
  dsimp only
  sl_unfold_words
  rw [View.canon_unit_zero hz]
  simp only [View.readAt_eq_ld, h2.read_unread, h3.read_unread, h4.read_unread, View.ld_unit_zero (S := S1024x1) hz,
    View.ld_unit_zero (S := S1x2048) hz]

/-- A point that resets: the body first stores the zero block, then leaves the update of the zero block. -/
theorem out_A (c : Dev nD) (i : grid1.Coords) (a2 : Memref sig .tc .vmem S1024x1 .f32) (h2 : a2.IsWhole)
    (a3 : Memref sig .tc .vmem S1x2048 .f32) (h3 : a3.IsWhole) (a4 : Memref sig .tc .vmem S1024x1 .f32) (h4 : a4.IsWhole)
    (hc : cond1_0 i) (x0 : Vec F S1024x1 .f32) (x1 : Vec F S1x2048 .f32) :
    out1_A_2 c i a2 h2 a3 h3 a4 h4 hc x0 x1 = k1_pay2 x0 x1 k1_pay1 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1024x1) hz, View.readCov_unit_zero (S := S1024x1) _ hz]
  simp only [View.readAt_eq_ld, h2.read_unread, h3.read_unread, View.ld_unit_zero (S := S1024x1) hz,
    View.ld_unit_zero (S := S1x2048) hz]

end Pieces

section Payload

/-- The reduced index `p` with lane `l` put back is `(p, l)`. -/
theorem lift_row (h : S1024x2048.Reduces [1] S1024) (p : Fin 1024) (l : Fin 2048) :
    h.lift (ix1 p) l = ix2 p l := by
  funext a; apply Fin.ext
  match a with
  | ⟨0, _⟩ => rfl
  | ⟨1, _⟩ => rfl

/-- A column vector broadcast along the lanes reads its row; -/
theorem bc_row (x : FVec Ideal S1024x1 .f32) (h : S1024x1.Broadcasts S1024x2048) (p : Fin 1024) (l : Fin 2048) :
    broadcastTo S1024x2048 x h (ix2 p l) = x (ix2 p 0) :=
  broadcastTo_apply x h (ix2 p l) (ix2 p 0) fun a => by
    match a with
    | ⟨0, _⟩ => rfl
    | ⟨1, _⟩ => rfl

/-- a row vector broadcast down the rows reads its lane. -/
theorem bc_col (x : FVec Ideal S1x2048 .f32) (h : S1x2048.Broadcasts S1024x2048) (p : Fin 1024) (l : Fin 2048) :
    broadcastTo S1024x2048 x h (ix2 p l) = x (ix2 0 l) :=
  broadcastTo_apply x h (ix2 p l) (ix2 0 l) fun a => by
    match a with
    | ⟨0, _⟩ => rfl
    | ⟨1, _⟩ => rfl

/-- The update read at row `p`: what the block held there plus the lane sum of the squared negative parts of
    `x0 p - x1 l`. -/
theorem pay2_apply (x0 : Vec Ideal S1024x1 .f32) (x1 : Vec Ideal S1x2048 .f32) (prev : Vec Ideal S1024x1 .f32) (p : Fin 1024) :
    (k1_pay2 (F := Ideal) x0 x1 prev : S1024x1.Idx → EReal) (ix2 p 0)
      = (prev : S1024x1.Idx → EReal) (ix2 p 0)
        + ∑ l : Fin 2048, min ((x0 : S1024x1.Idx → EReal) (ix2 p 0) - (x1 : S1x2048.Idx → EReal) (ix2 0 l)) 0
            * min ((x0 : S1024x1.Idx → EReal) (ix2 p 0) - (x1 : S1x2048.Idx → EReal) (ix2 0 l)) 0 := by
  unfold k1_pay2
  simp only [shapeCast_self]
  refine (addf_apply _ _ (ix2 p 0)).trans ?_
  refine congrArg (fun z : EReal => (prev : S1024x1.Idx → EReal) (ix2 p 0) + z) ?_
  refine (shapeCast_apply _ shapeCasts_S1024_S1024x1 (ix2 p 0) (ix1 p) ?_).trans ?_
  · rw [Shape.rowMajor_val_one, Shape.rowMajor_val_two]
    show p.val = p.val * 1 + 0
    omega
  refine (Ideal.multiReduction_add_single _ _ reduces_S1024x2048_S1024 _ _ (ix1 p)).trans ?_
  show ∑ l : Fin 2048, _ = _
  refine Finset.sum_congr rfl fun l _ => ?_
  rw [lift_row]
  refine (mulf_apply _ _ (ix2 p l)).trans ?_
  rw [minimumf_apply, subf_apply, bc_row, bc_col, broadcast_apply, Ideal.ofBits_def, Ideal.ofBits_zero_f32]

end Payload

section Blocks

/-- The block indices of the three windows at point `t = 4 i + j`: `(i, 0)`, `(0, j)`, `(i, 0)`. -/
theorem index0 : ∀ t : Fin cfg1.N, win1_0.index t 0 = t.val / 4 ∧ win1_0.index t 1 = 0 :=
  (by decide +kernel : ∀ t : Fin grid1.N, win1_0.index t 0 = t.val / 4 ∧ win1_0.index t 1 = 0)
theorem index1 : ∀ t : Fin cfg1.N, win1_1.index t 0 = 0 ∧ win1_1.index t 1 = t.val % 4 :=
  (by decide +kernel : ∀ t : Fin grid1.N, win1_1.index t 0 = 0 ∧ win1_1.index t 1 = t.val % 4)
theorem index2 : ∀ t : Fin cfg1.N, win1_2.index t 0 = t.val / 4 ∧ win1_2.index t 1 = 0 :=
  (by decide +kernel : ∀ t : Fin grid1.N, win1_2.index t 0 = t.val / 4 ∧ win1_2.index t 1 = 0)

/-- The row block and the column block at point `t`, at their literal types. -/
abbrev ablk (c : Dev nD) (t : Fin cfg1.N) : Vec Ideal S1024x1 .f32 := iblk1 V c 0 t
abbrev nblk (c : Dev nD) (t : Fin cfg1.N) : Vec Ideal S1x2048 .f32 := iblk1 V c 1 t

/-- The row block at point `t`, local row `p`, is the first array at row `1024 (t / 4) + p`. -/
theorem ablk_apply (c : Dev nD) (t : Fin cfg1.N) (p : Fin 1024) (r : Fin 8192) (hr : r.val = 1024 * (t.val / 4) + p.val) :
    (ablk V c t : S1024x1.Idx → EReal) (ix2 p 0) = (V c main_v7 : S8192x1.Idx → EReal) (ix2 r 0) := by
  unfold ablk iblk1
  rw [View.read_apply]
  show (V c main_v7 : S8192x1.Idx → EReal) _ = _
  refine congrArg (V c main_v7 : S8192x1.Idx → EReal) ?_
  funext a
  apply Fin.ext
  match a with
  | ⟨0, _⟩ => show win1_0.index t 0 * 1024 + 1 * p.val = r.val; rw [(index0 t).1]; omega
  | ⟨1, _⟩ => show win1_0.index t 1 * 1 + 1 * 0 = 0; rw [(index0 t).2]

/-- The column block at point `t`, lane `l`, is the second array at column `2048 (t % 4) + l`. -/
theorem nblk_apply (c : Dev nD) (t : Fin cfg1.N) (l : Fin 2048) (q : Fin 8192) (hq : q.val = 2048 * (t.val % 4) + l.val) :
    (nblk V c t : S1x2048.Idx → EReal) (ix2 0 l) = (V c main_v8 : S1x8192.Idx → EReal) (ix2 0 q) := by
  unfold nblk iblk1
  rw [View.read_apply]
  show (V c main_v8 : S1x8192.Idx → EReal) _ = _
  refine congrArg (V c main_v8 : S1x8192.Idx → EReal) ?_
  funext a
  apply Fin.ext
  match a with
  | ⟨0, _⟩ => show win1_1.index t 0 * 1 + 1 * 0 = 0; rw [(index1 t).1]
  | ⟨1, _⟩ => show win1_1.index t 1 * 2048 + 1 * l.val = q.val; rw [(index1 t).2]; omega

end Blocks

section Invariant

/-- Group `s`'s lane sum for row `r`: the sum over the 2048 rows `q` of group `s` of the squared negative part of
    `A r - N q` (zero past the four groups). -/
def grp (A N : Fin 8192 → EReal) (r : Fin 8192) (s : ℕ) : EReal :=
  if hs : s < 4 then ∑ l : Fin 2048, min (A r - N (col ⟨s, hs⟩ l)) 0 * min (A r - N (col ⟨s, hs⟩ l)) 0 else 0

/-- The four groups' lane sums add up to `rowAcc`. -/
theorem sum_grp (A N : Fin 8192 → EReal) (r : Fin 8192) :
    ∑ s ∈ Finset.range 4, grp A N r s = Cert.Auc.rowAcc A N r := by
  unfold Cert.Auc.rowAcc
  rw [Finset.sum_range]
  refine Finset.sum_congr rfl fun jb _ => ?_
  unfold grp
  rw [dif_pos jb.isLt]

variable (c : Dev nD) (A N : Fin 8192 → EReal)
  (hA : ∀ r : Fin 8192, (V c main_v7 : S8192x1.Idx → EReal) (ix2 r 0) = A r)
  (hN : ∀ q : Fin 8192, (V c main_v8 : S1x8192.Idx → EReal) (ix2 0 q) = N q)

include hA hN

/-- The lane sum the body forms at point `t` for local row `p` is group `t % 4`'s for row `1024 (t / 4) + p`. -/
theorem lane_eq (t : Fin cfg1.N) (p : Fin 1024) (r : Fin 8192) (hr : r.val = 1024 * (t.val / 4) + p.val) :
    (∑ l : Fin 2048, min ((ablk V c t : S1024x1.Idx → EReal) (ix2 p 0) - (nblk V c t : S1x2048.Idx → EReal) (ix2 0 l)) 0
        * min ((ablk V c t : S1024x1.Idx → EReal) (ix2 p 0) - (nblk V c t : S1x2048.Idx → EReal) (ix2 0 l)) 0)
      = grp A N r (t.val % 4) := by
  have hs : t.val % 4 < 4 := Nat.mod_lt _ (by norm_num)
  unfold grp
  rw [dif_pos hs]
  refine Finset.sum_congr rfl fun l _ => ?_
  rw [ablk_apply V c t p r hr,
    nblk_apply V c t l (col ⟨t.val % 4, hs⟩ l) (by show (t.val % 4) * 2048 + l.val = _; omega), hA, hN]

/-- After a point that resets, local row `p` of the block holds that point's lane sum. -/
theorem at_A (t : Fin cfg1.N) (h0 : t.val % 4 = 0) (p : Fin 1024) (r : Fin 8192)
    (hr : r.val = 1024 * (t.val / 4) + p.val) :
    (outsAt1 V c t.val t.isLt : S1024x1.Idx → EReal) (ix2 p 0) = grp A N r (t.val % 4) := by
  rw [outsAt1_A V c t h0]
  refine (congrFun (out_A (F := Ideal) c (grid1.coords t) (ms1_0 t) (hs1_0 t) (ms1_1 t) (hs1_1 t) (ms1_2 t) (hs1_2 t)
    ((hcond1_0 t).mpr h0) (ablk V c t) (nblk V c t)) (ix2 p 0)).trans ?_
  refine (pay2_apply (ablk V c t) (nblk V c t) (k1_pay1 (F := Ideal)) p).trans ?_
  rw [lane_eq V c A N hA hN t p r hr]
  show Ideal.ofBits .f32 0x00000000#32 + _ = _
  rw [Ideal.ofBits_zero_f32, zero_add]

/-- After any other point it holds what the point before left plus that point's lane sum. -/
theorem at_B (t : Fin cfg1.N) (h0 : ¬t.val % 4 = 0) (p : Fin 1024) (r : Fin 8192)
    (hr : r.val = 1024 * (t.val / 4) + p.val) :
    (outsAt1 V c t.val t.isLt : S1024x1.Idx → EReal) (ix2 p 0)
      = (outsAt1 V c (t.val - 1) (Nat.lt_of_le_of_lt (Nat.sub_le _ _) t.isLt) : S1024x1.Idx → EReal) (ix2 p 0)
        + grp A N r (t.val % 4) := by
  rw [outsAt1_B V c t h0]
  refine (congrFun (out_B (F := Ideal) c (grid1.coords t) (ms1_0 t) (hs1_0 t) (ms1_1 t) (hs1_1 t) (ms1_2 t) (hs1_2 t)
    (fun h => h0 ((hcond1_0 t).mp h)) (ablk V c t) (nblk V c t)
    (outsAt1 V c (t.val - 1) (Nat.lt_of_le_of_lt (Nat.sub_le _ _) t.isLt))) (ix2 p 0)).trans ?_
  refine (pay2_apply (ablk V c t) (nblk V c t)
    (outsAt1 V c (t.val - 1) (Nat.lt_of_le_of_lt (Nat.sub_le _ _) t.isLt)) p).trans ?_
  rw [lane_eq V c A N hA hN t p r hr]

/-- So after point `n = 4 i + j` local row `p` holds, for row `1024 i + p`, the lane sums of the groups `0 … j`. -/
theorem outsAt_apply : ∀ (n : ℕ) (h : n < cfg1.N) (p : Fin 1024) (r : Fin 8192), r.val = 1024 * (n / 4) + p.val →
    (outsAt1 V c n h : S1024x1.Idx → EReal) (ix2 p 0) = ∑ s ∈ Finset.range (n % 4 + 1), grp A N r s
  | 0, h, p, r, hr => by
    refine (at_A V c A N hA hN ⟨0, h⟩ rfl p r hr).trans ?_
    show grp A N r 0 = ∑ s ∈ Finset.range 1, grp A N r s
    rw [Finset.sum_range_one]
  | n + 1, h, p, r, hr => by
    by_cases h0 : (n + 1) % 4 = 0
    · refine (at_A V c A N hA hN ⟨n + 1, h⟩ h0 p r hr).trans ?_
      show grp A N r ((n + 1) % 4) = ∑ s ∈ Finset.range ((n + 1) % 4 + 1), grp A N r s
      rw [h0, Finset.sum_range_one]
    · have hr' : r.val = 1024 * (n / 4) + p.val := by omega
      refine (at_B V c A N hA hN ⟨n + 1, h⟩ h0 p r hr).trans ?_
      show (outsAt1 V c n (Nat.lt_of_succ_lt h) : S1024x1.Idx → EReal) (ix2 p 0) + grp A N r ((n + 1) % 4) = _
      rw [outsAt_apply n (Nat.lt_of_succ_lt h) p r hr']
      have e : (n + 1) % 4 = n % 4 + 1 := by omega
      rw [e, Finset.sum_range_succ _ (n % 4 + 1)]

end Invariant

section Closing

variable (c : Dev nD) (A N : Fin 8192 → EReal)
  (hA : ∀ r : Fin 8192, (V c main_v7 : S8192x1.Idx → EReal) (ix2 r 0) = A r)
  (hN : ∀ q : Fin 8192, (V c main_v8 : S1x8192.Idx → EReal) (ix2 0 q) = N q)

include hA hN in
/-- After the last point of a row block (`t % 4 = 3`) local row `p` holds `rowAcc` of row `1024 (t / 4) + p`. -/
theorem last_apply (t : Fin cfg1.N) (h3 : t.val % 4 = 3) (p : Fin 1024) (r : Fin 8192)
    (hr : r.val = 1024 * (t.val / 4) + p.val) :
    (outsAt1 V c t.val t.isLt : S1024x1.Idx → EReal) (ix2 p 0) = Cert.Auc.rowAcc A N r := by
  rw [outsAt_apply V c A N hA hN t.val t.isLt p r hr, h3]
  exact sum_grp A N r

include hA hN in
/-- What a point writes back is its block of `rowAcc` down the rows. -/
theorem flushed_eq (t : Fin cfg1.N) (hf : (cfg1.win 2).flush t = true) :
    (dat1 (F := Ideal) V c).flushed 2 t
      = ((cfg1.win 2).blk t).view.read (Elt Ideal) (fun i : S8192x1.Idx => Cert.Auc.rowAcc A N (i 0)) := by
  have h3 : t.val % 4 = 3 := (flush1_2 t).mp hf
  show (cfg1.win 2).cut (grid1.coords t) ((dat1 V c).after 2 t) = _
  rw [after1_2]
  funext y
  obtain ⟨p, q, rfl⟩ : ∃ (p : Fin 1024) (q : Fin 1), y = ix2 p q := ⟨y 0, y 1, eq_ix2 (n0 := 1024) (n1 := 1) y⟩
  obtain rfl : q = 0 := Subsingleton.elim _ _
  show (outsAt1 V c t.val t.isLt : S1024x1.Idx → EReal) (ix2 p 0)
    = Cert.Auc.rowAcc A N ((((cfg1.win 2).blk t).view.emb (ix2 p 0) : S8192x1.Idx) 0)
  refine last_apply V c A N hA hN t h3 p _ ?_
  show win1_2.index t 0 * 1024 + 1 * p.val = 1024 * (t.val / 4) + p.val
  rw [(index2 t).1]
  omega

/-- Row `r` lies in the block written back at the last point of row block `r / 1024`. -/
theorem cover (i : S8192x1.Idx) :
    ∃ t : Fin cfg1.N, (cfg1.win 2).flush t = true ∧ i ∈ ((cfg1.win 2).blk t).view.set := by
  have hi0 : (i 0).val < 8192 := idx2_lt0 i
  have hi1 : (i 1).val < 1 := idx2_lt1 i
  have hlt : 4 * ((i 0).val / 1024) + 3 < cfg1.N := by rw [show cfg1.N = 32 from N_1]; omega
  have e0 : win1_2.index ⟨4 * ((i 0).val / 1024) + 3, hlt⟩ 0 = (4 * ((i 0).val / 1024) + 3) / 4 := (index2 _).1
  have e1 : win1_2.index ⟨4 * ((i 0).val / 1024) + 3, hlt⟩ 1 = 0 := (index2 _).2
  refine ⟨⟨4 * ((i 0).val / 1024) + 3, hlt⟩,
    (flush1_2 _).mpr (by show (4 * ((i 0).val / 1024) + 3) % 4 = 3; omega), ?_⟩
  show i ∈ ((View.whole main_v9).slice (win1_2.rect ⟨4 * ((i 0).val / 1024) + 3, hlt⟩)).set
  rw [View.set_slice_whole, Rect.mem_set_unit]
  intro a
  match a with
  | ⟨0, _⟩ =>
    show win1_2.index ⟨4 * ((i 0).val / 1024) + 3, hlt⟩ 0 * 1024 ≤ (i 0).val
      ∧ (i 0).val < win1_2.index ⟨4 * ((i 0).val / 1024) + 3, hlt⟩ 0 * 1024 + 1024
    rw [e0]; omega
  | ⟨1, _⟩ =>
    show win1_2.index ⟨4 * ((i 0).val / 1024) + 3, hlt⟩ 1 * 1 ≤ (i 1).val
      ∧ (i 1).val < win1_2.index ⟨4 * ((i 0).val / 1024) + 3, hlt⟩ 1 * 1 + 1
    rw [e1]; omega

end Closing

/-- After region 1 the output array holds, at row `r`, the sum over all rows `q` (four groups of 2048, accumulated
    group by group from zero) of the squared negative part of `A r - N q`, where `A` is the column the region reads
    by row blocks and `N` the row it reads by column blocks: `rowAcc`. -/
theorem row_arr (c : Dev nD) (A N : Fin 8192 → EReal)
    (hA : ∀ r : Fin 8192, (V c main_v7 : S8192x1.Idx → EReal) (ix2 r 0) = A r)
    (hN : ∀ q : Fin 8192, (V c main_v8 : S1x8192.Idx → EReal) (ix2 0 q) = N q) :
    (dat1 (F := Ideal) V c).arrAt 2 cfg1.N = fun i : S8192x1.Idx => Cert.Auc.rowAcc A N (i 0) := by
  exact (dat1 (F := Ideal) V c).arrAt_eq_of_cover 2 (fun i : S8192x1.Idx => Cert.Auc.rowAcc A N (i 0))
    (fun t hf => flushed_eq V c A N hA hN t hf) cover

end Cert.Auc.K1

end
-- ==== Proof.KHost.lean ====
/-
  The idealized kernel's host operations around its two regions, read as values, and its result.

  Before region 0 the labels are reshaped to a column. Between the regions the host forms, per row, the validity
  bit (label ≠ 0), `pos - γ`, and selects between that and the large constant by the bit; and it lays the second
  output column of region 0 out as a row. After region 1 it sums the accumulated column, counts the valid rows as a
  sum of the bits converted to floats, adds one, and divides twice. Each buffer is read back through the fold of
  the segment boundaries to the launched arrays; the two regions' arrays are the statements of the two region
  modules. The result is `kloss` of the launched logits and the label indices.
-/
import proofs.«423340_j3289944948924_2_alg».proof.Proof.KRun
import proofs.«423340_j3289944948924_2_alg».proof.Proof.KVal0
import proofs.«423340_j3289944948924_2_alg».proof.Proof.KVal1
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section
namespace Cert.Auc.KH
open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- The logits as launched, row by class. -/
abbrev xf (c : Dev nD) : Fin 8192 → Fin 2048 → EReal :=
  fun r k => (m ((c : Thread nD τ).loc main_arg0) : S8192x2048.Idx → EReal) (ix2 r k)

/-- The label array as launched. -/
abbrev yw (c : Dev nD) : S8192.Idx → BitVec 32 := m ((c : Thread nD τ).loc main_arg1)

/-- The validity bit of a class index's word: the word differs from zero exactly when the index does. -/
theorem ne_bit (a : Fin 2048) : IntOp.cmpi .ne (BitVec.ofNat 32 a.val) 0#32 = if a ≠ 0 then 1#1 else 0#1 := by
  unfold IntOp.cmpi
  by_cases h : a = 0
  · subst h; rfl
  · have hne : BitVec.ofNat 32 a.val ≠ 0#32 := fun e => h ((Cert.Auc.ofNat_eq_iff a 0).mp e)
    rw [if_pos h]
    have hb : (BitVec.ofNat 32 a.val != 0#32) = true := by simpa [bne_iff_ne] using hne
    rw [hb]; rfl

/-- The logits are untouched when region 0 is entered. -/
theorem V1_arg0 (c : Dev nD) : (V1 m ρ c main_arg0 : S8192x2048.Idx → EReal) = m ((c : Thread nD τ).loc main_arg0) := by
  show StableHlo.after hostOps0 (W0 m ρ c) (Proc.devRef .tc main_arg0) = _
  after_results

/-- Region 0's label column is the label array, row by row. -/
theorem V1_v0 (c : Dev nD) (r : Fin 8192) :
    (V1 m ρ c main_v0 : S8192x1.Idx → BitVec 32) (ix2 r 0) = yw m c (ix1 r) := by
  have e : (V1 m ρ c main_v0 : S8192x1.Idx → BitVec 32)
      = shapeCast S8192x1 (yw m c) shapeCasts_S8192_S8192x1 := by
    show StableHlo.after hostOps0 (W0 m ρ c) (Proc.devRef .tc main_v0) = _
    after_results <;> rfl
  rw [e]
  refine shapeCast_apply _ _ _ _ ?_
  show (S8192.rowMajor (ix1 r)).val = (S8192x1.rowMajor (ix2 r 0)).val
  rw [Shape.rowMajor_val_one, Shape.rowMajor_val_two]
  show r.val = r.val * 1 + 0
  omega

/-- The labels are untouched after region 0. -/
theorem W2_arg1 (c : Dev nD) : (W2 m ρ c (Proc.devRef .tc main_arg1) : S8192.Idx → BitVec 32) = yw m c := by
  rw [W2_of_ne m ρ c main_arg1 (by decide)]
  show StableHlo.after hostOps0 (W0 m ρ c) (Proc.devRef .tc main_arg1) = _
  after_results

section
variable (yc : Fin 8192 → Fin 2048)

/-- After region 0 its first output array is `kpos` of the launched logits. -/
theorem pos2 (c : Dev nD) (hy : ∀ r : Fin 8192, yw m c (ix1 r) = BitVec.ofNat 32 (yc r).val) :
    (W2 m ρ c (Proc.devRef .tc main_v1_0) : S8192x1.Idx → EReal) = fun i => Cert.Auc.kpos (xf m c) yc (i 0) := by
  have h := Cert.Auc.K0.pos_arr (V1 m ρ) c yc (fun r => (V1_v0 m ρ c r).trans (hy r))
  rw [V1_arg0 m ρ c] at h
  exact (W2_arr m ρ c 2).trans h

/-- After region 0 its second output array is `kneg` of the launched logits. -/
theorem neg2 (c : Dev nD) (hy : ∀ r : Fin 8192, yw m c (ix1 r) = BitVec.ofNat 32 (yc r).val) :
    (W2 m ρ c (Proc.devRef .tc main_v1_1) : S8192x1.Idx → EReal) = fun i => Cert.Auc.kneg (xf m c) yc (i 0) := by
  have h := Cert.Auc.K0.neg_arr (V1 m ρ) c yc (fun r => (V1_v0 m ρ c r).trans (hy r))
  rw [V1_arg0 m ρ c] at h
  exact (W2_arr m ρ c 3).trans h

/-- The validity bits, computed between the regions from the untouched labels. -/
theorem valid5 (c : Dev nD) (hy : ∀ r : Fin 8192, yw m c (ix1 r) = BitVec.ofNat 32 (yc r).val) (r : Fin 8192) :
    (W5 m ρ c (Proc.devRef .tc main_v3) : S8192.Idx → BitVec 1) (ix1 r) = if yc r ≠ 0 then 1#1 else 0#1 := by
  have e : (W5 m ρ c (Proc.devRef .tc main_v3) : S8192.Idx → BitVec 1)
      = cmpi .ne (W2 m ρ c (Proc.devRef .tc main_arg1) : S8192.Idx → BitVec 32)
          (broadcastInDim S8192 ![] bcast_S_S8192 (constantI S_ 32 0#32)) := by
    show StableHlo.after hostOps1_2 (W4 m ρ c) (Proc.devRef .tc main_v3) = _
    after_results <;> rfl
  rw [e, W2_arg1]
  show IntOp.cmpi .ne (yw m c (ix1 r)) 0#32 = _
  rw [hy r, ne_bit]

/-- Region 1's first input column: `pos - γ` on a valid row, the large constant otherwise. -/
theorem adj5 (c : Dev nD) (hy : ∀ r : Fin 8192, yw m c (ix1 r) = BitVec.ofNat 32 (yc r).val) (r : Fin 8192) :
    (V5 m ρ c main_v7 : S8192x1.Idx → EReal) (ix2 r 0) = Cert.Auc.kadj (xf m c) yc r := by
  have e : (V5 m ρ c main_v7 : S8192x1.Idx → EReal)
      = (select (shapeCast S8192x1 (cmpi .ne (W2 m ρ c (Proc.devRef .tc main_arg1) : S8192.Idx → BitVec 32)
            (broadcastInDim S8192 ![] bcast_S_S8192 (constantI S_ 32 0#32))) shapeCasts_S8192_S8192x1)
          (subf (F := Ideal) (W2 m ρ c (Proc.devRef .tc main_v1_0) : FVec Ideal S8192x1 .f32)
            (broadcastInDim S8192x1 ![] bcast_S_S8192x1 (constant (F := Ideal) S_ .f32 0x3E99999A#32)))
          (broadcastInDim S8192x1 ![] bcast_S_S8192x1 (constant (F := Ideal) S_ .f32 0x4E6E6B28#32)) : S8192x1.Idx → EReal) := by
    show StableHlo.after hostOps1_2 (W4 m ρ c) (Proc.devRef .tc main_v7) = _
    after_results <;> rfl
  have hb : shapeCast S8192x1 (cmpi .ne (W2 m ρ c (Proc.devRef .tc main_arg1) : S8192.Idx → BitVec 32)
            (broadcastInDim S8192 ![] bcast_S_S8192 (constantI S_ 32 0#32))) shapeCasts_S8192_S8192x1 (ix2 r 0)
      = if yc r ≠ 0 then 1#1 else 0#1 := by
    rw [shapeCast_apply _ _ _ (ix1 r) (by
      show (S8192.rowMajor (ix1 r)).val = (S8192x1.rowMajor (ix2 r 0)).val
      rw [Shape.rowMajor_val_one, Shape.rowMajor_val_two]
      show r.val = r.val * 1 + 0
      omega), W2_arg1]
    show IntOp.cmpi .ne (yw m c (ix1 r)) 0#32 = _
    rw [hy r, ne_bit]
  rw [e, select_apply, hb, pos2 m ρ yc c hy]
  unfold Cert.Auc.kadj
  by_cases hv : yc r ≠ 0
  · rw [if_pos hv, if_pos hv, select_one]; rfl
  · rw [if_neg hv, if_neg hv, select_zero]; rfl

/-- Region 1's second input row: `kneg`, row `q` at column `q`. -/
theorem neg5 (c : Dev nD) (hy : ∀ r : Fin 8192, yw m c (ix1 r) = BitVec.ofNat 32 (yc r).val) (q : Fin 8192) :
    (V5 m ρ c main_v8 : S1x8192.Idx → EReal) (ix2 0 q) = Cert.Auc.kneg (xf m c) yc q := by
  have e : (V5 m ρ c main_v8 : S1x8192.Idx → EReal)
      = shapeCast S1x8192 (W2 m ρ c (Proc.devRef .tc main_v1_1) : S8192x1.Idx → EReal) shapeCasts_S8192x1_S1x8192 := by
    show StableHlo.after hostOps1_2 (W4 m ρ c) (Proc.devRef .tc main_v8) = _
    after_results <;> rfl
  rw [e, shapeCast_apply _ _ _ (ix2 q 0) (by
      show (S8192x1.rowMajor (ix2 q 0)).val = (S1x8192.rowMajor (ix2 0 q)).val
      rw [Shape.rowMajor_val_two, Shape.rowMajor_val_two]
      show q.val * 1 + 0 = 0 * 8192 + q.val
      omega), neg2 m ρ yc c hy]
  rfl

/-- After region 1 its output array is the accumulated row sums. -/
theorem row6 (c : Dev nD) (hy : ∀ r : Fin 8192, yw m c (ix1 r) = BitVec.ofNat 32 (yc r).val) :
    (W6 m ρ c (Proc.devRef .tc main_v9) : S8192x1.Idx → EReal)
      = fun i => Cert.Auc.rowAcc (Cert.Auc.kadj (xf m c) yc) (Cert.Auc.kneg (xf m c) yc) (i 0) :=
  (W6_arr m ρ c 2).trans (Cert.Auc.K1.row_arr (V5 m ρ) c _ _ (adj5 m ρ yc c hy) (neg5 m ρ yc c hy))

/-- The validity bits are untouched by region 1. -/
theorem valid6 (c : Dev nD) (hy : ∀ r : Fin 8192, yw m c (ix1 r) = BitVec.ofNat 32 (yc r).val) (r : Fin 8192) :
    (W6 m ρ c (Proc.devRef .tc main_v3) : S8192.Idx → BitVec 1) (ix1 r) = if yc r ≠ 0 then 1#1 else 0#1 := by
  rw [W6_of_ne m ρ c main_v3 (by decide)]
  exact valid5 m ρ yc c hy r

end

section
variable (yc : Fin 8192 → Fin 2048)

/-- A rank-1 index set is its one coordinate's range. -/
def idxEquiv1 : S8192.Idx ≃ Fin 8192 where
  toFun i := i 0
  invFun r := ix1 r
  left_inv i := (eq_ix1 i).symm
  right_inv _ := rfl

/-- The kernel's result: the quotient of the total of region 1's output by the count of valid rows plus one and by
    8193 is `kloss` of the launched logits. -/
theorem kernel_value (c : Dev nD) (hy : ∀ r : Fin 8192, yw m c (ix1 r) = BitVec.ofNat 32 (yc r).val) :
    (W7 m ρ c (Proc.devRef .tc main_v15) : S_.Idx → EReal) = fun _ => Cert.Auc.kloss (xf m c) yc := by
  have e : (W7 m ρ c (Proc.devRef .tc main_v15) : S_.Idx → EReal)
      = (Host.divf (F := Ideal)
          (Host.divf (F := Ideal)
            (Host.reduceAdd (F := Ideal) (W6 m ρ c (Proc.devRef .tc main_v9) : FVec Ideal S8192x1 .f32)
              (constant (F := Ideal) S_ .f32 0x00000000#32) reducesTo_S8192x1_S_d0_1 h_S_)
            (addf (F := Ideal)
              (Host.reduceAdd (F := Ideal) (uitofp (F := Ideal) .f32 (W6 m ρ c (Proc.devRef .tc main_v3) : IVec S8192 1))
                (constant (F := Ideal) S_ .f32 0x00000000#32) reducesTo_S8192_S_d0 h_S_)
              (constant (F := Ideal) S_ .f32 0x3F800000#32)))
          (constant (F := Ideal) S_ .f32 0x46000400#32) : S_.Idx → EReal) := by
    show StableHlo.after hostOps2 (W6 m ρ c) (Proc.devRef .tc main_v15) = _
    after_results <;> rfl
  rw [e]
  funext i
  have hsum : Host.reduceAdd (F := Ideal) (W6 m ρ c (Proc.devRef .tc main_v9) : FVec Ideal S8192x1 .f32)
        (constant (F := Ideal) S_ .f32 0x00000000#32) reducesTo_S8192x1_S_d0_1 h_S_ i
      = ∑ r : Fin 8192, Cert.Auc.rowAcc (Cert.Auc.kadj (xf m c) yc) (Cert.Auc.kneg (xf m c) yc) r := by
    simp only [Host.reduceAdd, Ideal.hostReduceAdd_def]
    rw [Ideal.hostReduceAdd_total reducesTo_S8192x1_S_d0_1 (fun b => b.elim0) _ _ i, sum_idx2]
    simp only [constant_apply, Ideal.ofBits_zero_f32, zero_add, Fin.sum_univ_one]
    exact Finset.sum_congr rfl fun r _ => congrFun (row6 m ρ yc c hy) (ix2 r 0)
  have hcnt : Host.reduceAdd (F := Ideal) (uitofp (F := Ideal) .f32 (W6 m ρ c (Proc.devRef .tc main_v3) : IVec S8192 1))
        (constant (F := Ideal) S_ .f32 0x00000000#32) reducesTo_S8192_S_d0 h_S_ i
      = Cert.Auc.kcnt yc := by
    simp only [Host.reduceAdd, Ideal.hostReduceAdd_def]
    rw [Ideal.hostReduceAdd_total reducesTo_S8192_S_d0 (fun b => b.elim0) _ _ i,
      ← Equiv.sum_comp idxEquiv1.symm]
    simp only [constant_apply, Ideal.ofBits_zero_f32, zero_add]
    unfold Cert.Auc.kcnt
    refine Finset.sum_congr rfl fun r _ => ?_
    show FloatOps.uitofp (F := Ideal) .f32 ((W6 m ρ c (Proc.devRef .tc main_v3) : S8192.Idx → BitVec 1) (ix1 r)) = _
    rw [valid6 m ρ yc c hy r]
    by_cases hv : yc r ≠ 0
    · rw [if_pos hv, if_pos hv]; show (((1#1 : BitVec 1).toNat : ℝ) : EReal) = 1; norm_num
    · rw [if_neg hv, if_neg hv]; show (((0#1 : BitVec 1).toNat : ℝ) : EReal) = 0; norm_num
  have hdiv : ∀ (a b : FVec Ideal S_ .f32) (j : S_.Idx), Host.divf (F := Ideal) a b j = Ideal.div (a j) (b j) :=
    fun _ _ _ => rfl
  rw [hdiv, hdiv, addf_apply, hsum, hcnt, constant_apply, constant_apply]
  rfl

end

end Cert.Auc.KH

end
-- ==== Proof.RRow.lean ====
/-
  The reference's three stages that are not one-element-per-element: the labelled logistic read by the gather, the
  row maximum of the masked logistics, and the count of valid rows taken in integers.
-/
import proofs.«423340_j3289944948924_2_alg».proof.Proof.Gen.ReferenceIdeal.Read
import proofs.«423340_j3289944948924_2_alg».proof.Proof.Spec
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws

noncomputable section

namespace Cert.Auc.R

open Idealize.ShloMosaic Idealize.ShloMosaic.TcCoe Idealize.SL.Sem Idealize.ShloMosaic.ValueIdx
open Cert.ReferenceIdeal Cert.ReferenceIdeal.Gen

local notation "gd" => gather_S8192x2048_S8192x2_S8192_n_01_n_n_01_1_11

/-! ## The gather of one element per row

The dimension numbers collapse both operand axes and map the start index's two components to them, so result
row `r` reads the operand at (component 0, component 1) of start index `r`, each read signed and clamped to its
axis. -/

/-- The operand's row coordinate for result row `r`: the start index's component 0, clamped. -/
theorem gather_c0 (idx : IVec S8192x2 32) (r : Fin 8192) :
    GatherDims.start gd (ix1 r) idx (0 : Fin 2) + GatherDims.batchCoord gd (ix1 r) (0 : Fin 2)
      + GatherDims.offCoord gd (ix1 r) (0 : Fin 2) = min (idx (ix2 r (0 : Fin 2))).toInt.toNat 8191 := by
  rw [GatherDims.batchCoord_eq_zero _ _ _ List.not_mem_nil,
    GatherDims.offCoord_eq_zero _ _ _ (fun h => ((GatherDims.mem_sKept _ _).mp h).1
      (show (0 : Fin 2) ∈ [(0 : Fin 2), 1] from by decide))]
  simp only [Nat.add_zero]
  unfold GatherDims.start
  rw [dif_pos (show (0 : Fin 2) ∈ GatherDims.startIndexMap gd from (show (0 : Fin 2) ∈ [(0 : Fin 2), 1] from by decide))]
  have hsi : GatherDims.siIdx gd (ix1 r) ⟨List.idxOf (0 : Fin 2) (GatherDims.startIndexMap gd),
      List.idxOf_lt_length_iff.2 (show (0 : Fin 2) ∈ [(0 : Fin 2), 1] from by decide)⟩ = ix2 r (0 : Fin 2) := by
    funext b; refine Fin.ext ?_
    match b with
    | ⟨0, _⟩ => rfl
    | ⟨1, _⟩ => rfl
  rw [hsi]
  rfl

/-- The operand's class coordinate for result row `r`: the start index's component 1, clamped. -/
theorem gather_c1 (idx : IVec S8192x2 32) (r : Fin 8192) :
    GatherDims.start gd (ix1 r) idx (1 : Fin 2) + GatherDims.batchCoord gd (ix1 r) (1 : Fin 2)
      + GatherDims.offCoord gd (ix1 r) (1 : Fin 2) = min (idx (ix2 r (1 : Fin 2))).toInt.toNat 2047 := by
  rw [GatherDims.batchCoord_eq_zero _ _ _ List.not_mem_nil,
    GatherDims.offCoord_eq_zero _ _ _ (fun h => ((GatherDims.mem_sKept _ _).mp h).1
      (show (1 : Fin 2) ∈ [(0 : Fin 2), 1] from by decide))]
  simp only [Nat.add_zero]
  unfold GatherDims.start
  rw [dif_pos (show (1 : Fin 2) ∈ GatherDims.startIndexMap gd from (show (1 : Fin 2) ∈ [(0 : Fin 2), 1] from by decide))]
  have hsi : GatherDims.siIdx gd (ix1 r) ⟨List.idxOf (1 : Fin 2) (GatherDims.startIndexMap gd),
      List.idxOf_lt_length_iff.2 (show (1 : Fin 2) ∈ [(0 : Fin 2), 1] from by decide)⟩ = ix2 r (1 : Fin 2) := by
    funext b; refine Fin.ext ?_
    match b with
    | ⟨0, _⟩ => rfl
    | ⟨1, _⟩ => rfl
  rw [hsi]
  rfl

/-- The gather at result row `r`: the operand at the clamped (component 0, component 1) of start index `r`. -/
theorem gather_rc {α : Type} (x : S8192x2048.Idx → α) (idx : IVec S8192x2 32) (r : Fin 8192) :
    Host.gather gd x idx (ix1 r)
      = x (ix2 (⟨min (idx (ix2 r (0 : Fin 2))).toInt.toNat 8191, by omega⟩ : Fin 8192)
               (⟨min (idx (ix2 r (1 : Fin 2))).toInt.toNat 2047, by omega⟩ : Fin 2048)) := by
  unfold Host.gather
  congr 1
  funext a
  refine Fin.ext ?_
  match a with
  | ⟨0, _⟩ => exact gather_c0 idx r
  | ⟨1, _⟩ => exact gather_c1 idx r

/-! ## The start indices: nothing wraps -/

/-- The wrap "add the extent where the word is negative" leaves a word below 2³¹ as it is. -/
theorem wrap_id (a n : BitVec 32) (ha : a.toNat < 2 ^ 31) :
    Scalar.select (IntOp.cmpi .slt a 0#32) (IntOp.addi a n) a = a := by
  have h0 : IntOp.cmpi .slt a 0#32 = 0#1 := eq_zero_of_ne_one fun h => by
    have := (StableHlo.Predicate.slt_iff_toNat ha (by decide)).1 h
    simp at this
  rw [h0, select_zero]

/-- A number below 8192 is the value of its 32-bit word. -/
theorem toNat_ofNat_lt (n : Nat) (hn : n < 8192) : (BitVec.ofNat 32 n).toNat = n := by
  rw [BitVec.toNat_ofNat]; exact Nat.mod_eq_of_lt (by omega)

/-- Component 0 of start index `r` is the row number `r`. -/
theorem v20_c0 (Y : (⟨S8192, .i32⟩ : BufTy).Contents (Elt Ideal)) (r : Fin 8192) :
    Cert.ReferenceIdeal.Read.val_main_v20 (F := Ideal) Y (ix2 r (0 : Fin 2)) = BitVec.ofNat 32 r.val := by
  unfold Cert.ReferenceIdeal.Read.val_main_v20
  refine (concatenate_pair_apply_left (t := S8192x2) (s₁ := S8192x1) (s₂ := S8192x1) (1 : Fin 2) _ _ concatenates_S8192x1_S8192x1_S8192x2_d1 (ix2 r (0 : Fin 2)) rfl
    (ix2 r (0 : Fin 1)) (fun b => by match b with | ⟨0, _⟩ => rfl | ⟨1, _⟩ => rfl)).trans ?_
  rw [Cert.ReferenceIdeal.Read.val_main_v18_apply, Cert.ReferenceIdeal.Read.val_main_v12_apply,
    Cert.ReferenceIdeal.Read.val_main_v9_apply, Cert.ReferenceIdeal.Read.val_main_v11_apply,
    Cert.ReferenceIdeal.Read.val_main_v8_apply, Cert.ReferenceIdeal.Read.val_main_c_apply]
  exact wrap_id _ _ (by
    rw [Cert.ReferenceIdeal.Read.val_main_v6_apply]
    show (BitVec.ofNat 32 r.val).toNat < 2 ^ 31
    rw [toNat_ofNat_lt _ r.isLt]; omega)

/-- Component 1 of start index `r` is row `r`'s label word. -/
theorem v20_c1 (Y : (⟨S8192, .i32⟩ : BufTy).Contents (Elt Ideal)) (r : Fin 8192) (hY : (Y (ix1 r)).toNat < 2 ^ 31) :
    Cert.ReferenceIdeal.Read.val_main_v20 (F := Ideal) Y (ix2 r (1 : Fin 2)) = Y (ix1 r) := by
  unfold Cert.ReferenceIdeal.Read.val_main_v20
  refine (concatenate_pair_apply_right (t := S8192x2) (s₁ := S8192x1) (s₂ := S8192x1) (1 : Fin 2) _ _ concatenates_S8192x1_S8192x1_S8192x2_d1 (ix2 r (1 : Fin 2)) rfl rfl
    (ix2 r (0 : Fin 1)) (fun b hb => by
      match b with
      | ⟨0, _⟩ => rfl
      | ⟨1, _⟩ => exact absurd rfl hb) rfl).trans ?_
  rw [Cert.ReferenceIdeal.Read.val_main_v19_apply, Cert.ReferenceIdeal.Read.val_main_v17_apply,
    Cert.ReferenceIdeal.Read.val_main_v14_apply, Cert.ReferenceIdeal.Read.val_main_v16_apply,
    Cert.ReferenceIdeal.Read.val_main_v13_apply, Cert.ReferenceIdeal.Read.val_main_c_2_apply]
  have hi : Cert.ReferenceIdeal.Read.idx_main_v19 (ix2 r (0 : Fin 1)) = ix1 r := by
    funext d; match d with | ⟨0, _⟩ => rfl
  rw [hi]
  exact wrap_id _ _ hY

/-! ## The logistic as the reference spells it -/

/-- The word `0x3F800000` is the number one. -/
theorem ofBits_one : Ideal.ofBits .f32 0x3F800000#32 = 1 := by
  simp [Ideal.ofBits, Ideal.ieee, -EReal.coe_mul]; norm_num

/-- One divided by one plus the exponential of the negation is the logistic. -/
theorem v5_apply (X : (⟨S8192x2048, .f32⟩ : BufTy).Contents (Elt Ideal)) (i : S8192x2048.Idx) :
    Cert.ReferenceIdeal.Read.val_main_v5 (F := Ideal) X i = Ideal.logistic (X i) := by
  rw [Cert.ReferenceIdeal.Read.val_main_v5_apply, Cert.ReferenceIdeal.Read.val_main_v4_apply,
    Cert.ReferenceIdeal.Read.val_main_cst_0_apply, Cert.ReferenceIdeal.Read.val_main_v3_apply,
    Cert.ReferenceIdeal.Read.val_main_v2_apply, Cert.ReferenceIdeal.Read.val_main_cst_apply,
    Cert.ReferenceIdeal.Read.val_main_v1_apply, Cert.ReferenceIdeal.Read.val_main_v0_apply]
  show Ideal.div (Ideal.ofBits .f32 0x3F800000#32) (Ideal.ofBits .f32 0x3F800000#32 + Ideal.exp (-(X i))) = _
  rw [ofBits_one]
  rfl

/-! ## The row maximum of the masked logistics -/

/-- The disjunction of two bits is set exactly when one of them is. -/
theorem ori_eq_one_iff (a b : BitVec 1) : IntOp.ori a b = 1#1 ↔ a = 1#1 ∨ b = 1#1 := by
  rcases BitVec.eq_zero_or_eq_one a with h | h <;> rcases BitVec.eq_zero_or_eq_one b with h' | h' <;> subst h <;> subst h' <;> decide

/-- The mask "class = label, or class = 0", as words, decides the select as the proposition does. -/
theorem mask_select {α : Type} (k y : Fin 2048) (u v : α) :
    Scalar.select (IntOp.ori (IntOp.cmpi .eq (BitVec.ofNat 32 k.val) (BitVec.ofNat 32 y.val))
      (IntOp.cmpi .eq (BitVec.ofNat 32 k.val) 0#32)) u v = if k = y ∨ k = 0 then u else v := by
  by_cases h : k = y ∨ k = 0
  · rw [if_pos h]
    have h1 : IntOp.ori (IntOp.cmpi .eq (BitVec.ofNat 32 k.val) (BitVec.ofNat 32 y.val))
        (IntOp.cmpi .eq (BitVec.ofNat 32 k.val) 0#32) = 1#1 :=
      (ori_eq_one_iff _ _).2 (h.imp (fun e => StableHlo.Predicate.cmpi_eq_iff.2 (by rw [e]))
        (fun e => StableHlo.Predicate.cmpi_eq_iff.2 (by rw [e]; rfl)))
    rw [h1, select_one]
  · rw [if_neg h]
    have h0 : IntOp.ori (IntOp.cmpi .eq (BitVec.ofNat 32 k.val) (BitVec.ofNat 32 y.val))
        (IntOp.cmpi .eq (BitVec.ofNat 32 k.val) 0#32) = 0#1 :=
      eq_zero_of_ne_one fun h1 => h (((ori_eq_one_iff _ _).1 h1).imp
        (fun e => (Cert.Auc.ofNat_eq_iff _ _).1 (StableHlo.Predicate.cmpi_eq_iff.1 e))
        (fun e => (Cert.Auc.ofNat_eq_iff k 0).1 (StableHlo.Predicate.cmpi_eq_iff.1 e)))
    rw [h0, select_zero]

/-- The word `0xFF800000` is −∞, the bottom of the extended reals. -/
theorem ofBits_negInf : Ideal.ofBits .f32 0xFF800000#32 = ⊥ := by
  simp [Ideal.ofBits, Ideal.ieee]

/-- The zero word is the number zero. -/
theorem ofBits_zero : Ideal.ofBits .f32 0x00000000#32 = 0 := by
  simp [Ideal.ofBits, Ideal.ieee]

/-- The masked logistic at (row `r`, class `k`). -/
theorem v34_apply (X : (⟨S8192x2048, .f32⟩ : BufTy).Contents (Elt Ideal)) (Y : (⟨S8192, .i32⟩ : BufTy).Contents (Elt Ideal))
    (y : Fin 2048) (r : Fin 8192) (k : Fin 2048) (hy : Y (ix1 r) = BitVec.ofNat 32 y.val) :
    Cert.ReferenceIdeal.Read.val_main_v34 (F := Ideal) X Y (ix2 r k)
      = if k = y ∨ k = 0 then (0 : EReal) else Ideal.logistic (X (ix2 r k)) := by
  rw [Cert.ReferenceIdeal.Read.val_main_v34_apply, v5_apply, Cert.ReferenceIdeal.Read.val_main_call0_v0_apply,
    Cert.ReferenceIdeal.Read.val_main_cst_6_apply, Cert.ReferenceIdeal.Read.val_main_v33_apply,
    Cert.ReferenceIdeal.Read.val_main_v28_apply, Cert.ReferenceIdeal.Read.val_main_v26_apply,
    Cert.ReferenceIdeal.Read.val_main_v24_apply, Cert.ReferenceIdeal.Read.val_main_v7_apply,
    Cert.ReferenceIdeal.Read.val_main_v27_apply, Cert.ReferenceIdeal.Read.val_main_v25_apply,
    Cert.ReferenceIdeal.Read.val_main_v32_apply, Cert.ReferenceIdeal.Read.val_main_v31_apply,
    Cert.ReferenceIdeal.Read.val_main_v29_apply, Cert.ReferenceIdeal.Read.val_main_v7_apply,
    Cert.ReferenceIdeal.Read.val_main_v30_apply, Cert.ReferenceIdeal.Read.val_main_c_5_apply]
  have hi : Cert.ReferenceIdeal.Read.idx_main_v25 (Cert.ReferenceIdeal.Read.idx_main_v27 (ix2 r k)) = ix1 r := by
    funext d; match d with | ⟨0, _⟩ => rfl
  rw [hi, hy]
  show Scalar.select (IntOp.ori (IntOp.cmpi .eq (BitVec.ofNat 32 k.val) (BitVec.ofNat 32 y.val))
    (IntOp.cmpi .eq (BitVec.ofNat 32 k.val) 0#32)) (Ideal.ofBits .f32 0x00000000#32) (Ideal.logistic (X (ix2 r k))) = _
  rw [mask_select, ofBits_zero]

/-- Row `r` with class `k` put back on the reduced axis is the index (r, k). -/
theorem lift_rk (h : S8192x2048.Reduces [(1 : Fin 2)] S8192) (r : Fin 8192) (k : Fin 2048) :
    h.lift (ix1 r) k = ix2 r k := by
  funext c; apply Fin.ext
  match c with
  | ⟨0, _⟩ => rfl
  | ⟨1, _⟩ => rfl

/-! ## The count of valid rows -/

/-- The comparison "not equal" sets its bit exactly when the words differ. -/
theorem cmpi_ne_iff {w : Nat} (a b : BitVec w) : IntOp.cmpi .ne a b = 1#1 ↔ a ≠ b := by
  simp only [IntOp.cmpi, StableHlo.Predicate.ofBool_eq_one_iff, bne_iff_ne]

/-- A count of the members of a finite set with a property, taken in the naturals and read as an extended real, is the
    sum of ones over those members. -/
theorem coe_count {ι : Type} (S : Finset ι) (P : ι → Prop) [DecidablePred P] :
    ((((∑ i ∈ S, if P i then 1 else 0 : ℕ) : ℤ) : ℝ) : EReal) = ∑ i ∈ S, if P i then (1 : EReal) else 0 := by
  induction S using Finset.cons_induction with
  | empty => simp
  | cons a S ha ih =>
    rw [Finset.sum_cons, Finset.sum_cons, ← ih, Nat.cast_add, Int.cast_add, EReal.coe_add]
    by_cases h : P a
    · rw [if_pos h, if_pos h]; simp
    · rw [if_neg h, if_neg h]; simp

/-- The widened validity bit of row `k` is `1` on a valid row and `0` otherwise. -/
theorem v51_toNat (Y : (⟨S8192, .i32⟩ : BufTy).Contents (Elt Ideal)) (y : Fin 2048) (k : Fin 8192)
    (hy : Y (ix1 k) = BitVec.ofNat 32 y.val) :
    (Cert.ReferenceIdeal.Read.val_main_v51 (F := Ideal) Y (ix1 k)).toNat = if y ≠ 0 then 1 else 0 := by
  rw [Cert.ReferenceIdeal.Read.val_main_v51_apply, StableHlo.Predicate.toNat_setWidth_bit,
    Cert.ReferenceIdeal.Read.val_main_v23_apply, Cert.ReferenceIdeal.Read.val_main_v22_apply,
    Cert.ReferenceIdeal.Read.val_main_c_4_apply, hy]
  have e : (IntOp.cmpi .ne (BitVec.ofNat 32 y.val) 0#32 = 1#1) ↔ y ≠ 0 := by
    rw [cmpi_ne_iff]
    exact not_congr (Cert.Auc.ofNat_eq_iff y 0)
  by_cases h : y ≠ 0
  · rw [if_pos h, if_pos (e.2 h)]
  · rw [if_neg h, if_neg (fun h' => h (e.1 h'))]

variable (X : (⟨S8192x2048, .f32⟩ : BufTy).Contents (Elt Ideal)) (Y : (⟨S8192, .i32⟩ : BufTy).Contents (Elt Ideal))
  (yc : Fin 8192 → Fin 2048)

/-- The gather reads, in row `r`, the logistic of the labelled logit: the start index is (`r`, the label), the label
    in range, so nothing is wrapped or clamped. -/
theorem ref_pos (hy : ∀ r : Fin 8192, Y (ix1 r) = BitVec.ofNat 32 (yc r).val) :
    Cert.ReferenceIdeal.Read.val_main_v21 (F := Ideal) X Y
      = fun i : S8192.Idx => Cert.Auc.rpos (fun r k => X (ix2 r k)) yc (i 0) := by
  funext i
  obtain ⟨r, rfl⟩ : ∃ r : Fin 8192, i = ix1 r := ⟨i 0, eq_ix1 i⟩
  unfold Cert.ReferenceIdeal.Read.val_main_v21
  -- the gather reads the logistics at the clamped start index of row `r`
  refine (gather_rc _ _ r).trans ?_
  rw [v5_apply]
  -- the start index is (r, yc r), both components in range: signed reading and clamp leave them as they are
  have hyr : (Y (ix1 r)).toNat = (yc r).val := by
    rw [hy r]; exact toNat_ofNat_lt _ (by have := (yc r).isLt; omega)
  have h0 : (Cert.ReferenceIdeal.Read.val_main_v20 (F := Ideal) Y (ix2 r (0 : Fin 2))).toInt.toNat = r.val := by
    rw [v20_c0, StableHlo.Predicate.toInt_ofNat_small _ (by have := r.isLt; omega)]; rfl
  have h1 : (Cert.ReferenceIdeal.Read.val_main_v20 (F := Ideal) Y (ix2 r (1 : Fin 2))).toInt.toNat = (yc r).val := by
    rw [v20_c1 Y r (by rw [hyr]; have := (yc r).isLt; omega), hy r,
      StableHlo.Predicate.toInt_ofNat_small _ (by have := (yc r).isLt; omega)]; rfl
  have e0 : (⟨min (Cert.ReferenceIdeal.Read.val_main_v20 (F := Ideal) Y (ix2 r (0 : Fin 2))).toInt.toNat 8191, by omega⟩ : Fin 8192) = r :=
    Fin.ext (by show min _ 8191 = r.val; rw [h0]; have := r.isLt; omega)
  have e1 : (⟨min (Cert.ReferenceIdeal.Read.val_main_v20 (F := Ideal) Y (ix2 r (1 : Fin 2))).toInt.toNat 2047, by omega⟩ : Fin 2048) = yc r :=
    Fin.ext (by show min _ 2047 = (yc r).val; rw [h1]; have := (yc r).isLt; omega)
  rw [e0, e1]
  rfl

/-- The row maximum: the fold of `max` from `⊥` over the classes of the logistics, the masked classes at `0`. -/
theorem ref_neg (hy : ∀ r : Fin 8192, Y (ix1 r) = BitVec.ofNat 32 (yc r).val) :
    Cert.ReferenceIdeal.Read.val_main_v35 (F := Ideal) X Y
      = fun i : S8192.Idx => Cert.Auc.rneg (fun r k => X (ix2 r k)) yc (i 0) := by
  funext i
  obtain ⟨r, rfl⟩ : ∃ r : Fin 8192, i = ix1 r := ⟨i 0, eq_ix1 i⟩
  unfold Cert.ReferenceIdeal.Read.val_main_v35
  have hR : S8192x2048.Reduces [(1 : Fin 2)] S8192 := by decide
  -- the reduction over the class axis, at row `r`, is the fold of the maximum over the classes
  refine (Host.reduce_eq_fold_single FloatOps.maximumf _ _ reducesTo_S8192x2048_S8192_d1 hR h_S_ (ix1 r)).trans ?_
  rw [Cert.ReferenceIdeal.Read.val_main_cst_7_apply]
  have hf : (Cert.ReferenceIdeal.Read.val_main_v34 (F := Ideal) X Y ∘ hR.lift (ix1 r))
      = fun k : Fin 2048 => if k = yc r ∨ k = 0 then (0 : EReal) else Ideal.logistic (X (ix2 r k)) :=
    funext fun k => by
      show Cert.ReferenceIdeal.Read.val_main_v34 (F := Ideal) X Y (hR.lift (ix1 r) k) = _
      rw [lift_rk hR r k]
      exact v34_apply X Y (yc r) r k (hy r)
  rw [hf]
  show Finset.fold max (Ideal.ofBits .f32 0xFF800000#32)
    (fun k : Fin 2048 => if k = yc r ∨ k = 0 then (0 : EReal) else Ideal.logistic (X (ix2 r k)))
    (Finset.univ : Finset (Fin 2048)) = _
  rw [ofBits_negInf]
  rfl

/-- The count of valid rows: the 32-bit sum of the validity bits does not wrap (at most 8192 of them), and its
    conversion to a float is the number of valid rows. -/
theorem ref_cnt (hy : ∀ r : Fin 8192, Y (ix1 r) = BitVec.ofNat 32 (yc r).val) :
    Cert.ReferenceIdeal.Read.val_main_v53 (F := Ideal) Y = fun _ : S_.Idx => Cert.Auc.kcnt yc := by
  funext j
  rw [Cert.ReferenceIdeal.Read.val_main_v53_apply]
  unfold Cert.ReferenceIdeal.Read.val_main_v52
  rw [Host.reduce_eq_fold IntOp.addi _ _ reducesTo_S8192_S_d0 h_S_ j, Cert.ReferenceIdeal.Read.val_main_c_12_apply]
  -- every row reduces to the one scalar index
  have hall : (Finset.univ.filter fun i : S8192.Idx => reducesTo_S8192_S_d0.drop i = j) = Finset.univ :=
    Finset.filter_true_of_mem fun i _ => funext fun b => b.elim0
  rw [hall]
  -- the values of the widened bits sum, in the naturals, to the number of valid rows, at most 8192
  have hsum : ∑ i : S8192.Idx, (Cert.ReferenceIdeal.Read.val_main_v51 (F := Ideal) Y i).toNat
      = ∑ k : Fin 8192, if yc k ≠ 0 then 1 else 0 :=
    (Equiv.sum_comp (idxEquiv1 (n := 8192)).symm
      (fun i : S8192.Idx => (Cert.ReferenceIdeal.Read.val_main_v51 (F := Ideal) Y i).toNat)).symm.trans
      (Finset.sum_congr rfl fun k _ => v51_toNat Y (yc k) k (hy k))
  have hle : (∑ k : Fin 8192, if yc k ≠ 0 then 1 else 0) ≤ 8192 := by
    rw [Finset.sum_boole]
    simpa using Finset.card_le_univ (Finset.univ.filter fun k : Fin 8192 => yc k ≠ 0)
  -- so the 32-bit sum does not wrap, and its word, below 2³¹, reads the same signed
  have ht := StableHlo.Predicate.toNat_fold_addi Finset.univ (Cert.ReferenceIdeal.Read.val_main_v51 (F := Ideal) Y)
    (by rw [hsum]; omega)
  rw [hsum] at ht
  generalize Finset.fold IntOp.addi (0#32) (Cert.ReferenceIdeal.Read.val_main_v51 (F := Ideal) Y) Finset.univ = w at ht ⊢
  show (((w.toInt : ℝ)) : EReal) = Cert.Auc.kcnt yc
  rw [StableHlo.Predicate.toInt_eq_toNat_of_lt (by omega), ht]
  exact coe_count Finset.univ (fun k => yc k ≠ 0)

end Cert.Auc.R

end
-- ==== Proof.RVal.lean ====
/-
  The reference's result as the function `rloss` of the logits and the labels: its stages chained, element by
  element, from the three stages read in `RRow`.
-/
import proofs.«423340_j3289944948924_2_alg».proof.Proof.Gen.ReferenceIdeal.Read
import proofs.«423340_j3289944948924_2_alg».proof.Proof.Spec
import proofs.«423340_j3289944948924_2_alg».proof.Proof.RRow
import Idealize.ShloMosaic.Lib.ValueIdx
import Idealize.ShloMosaic.Lib.Pipeline.Value
import Idealize.ShloMosaic.PureOps.Ideal.Laws

noncomputable section

namespace Cert.Auc.R

open Idealize.ShloMosaic Idealize.ShloMosaic.TcCoe Idealize.SL.Sem Idealize.ShloMosaic.ValueIdx
open Cert.ReferenceIdeal Cert.ReferenceIdeal.Gen

variable (X : (⟨S8192x2048, .f32⟩ : BufTy).Contents (Elt Ideal)) (Y : (⟨S8192, .i32⟩ : BufTy).Contents (Elt Ideal))
  (yc : Fin 8192 → Fin 2048)

open Cert.ReferenceIdeal.Read

/-- The comparison "less than zero" answers the bit `1` exactly on the negative extended reals. -/
theorem rv_olt_zero (a : EReal) : Ideal.cmp .olt a 0 = 1#1 ↔ a < 0 := by
  by_cases h : a < 0
  · simp [Ideal.cmp, h]
  · simp [Ideal.cmp, h]

/-- One element of the masked square, over variables: the select keeps the squared margin where the margin is
    negative and the validity bit set, and answers zero elsewhere. -/
theorem rv_sel (p n g : Ideal .f32) (b : BitVec 1) :
    Scalar.select
        (IntOp.andi
          (FloatOps.cmpf .olt (FloatOps.subf (FloatOps.subf p n) g) (FloatOps.ofBits (F := Ideal) .f32 0x00000000#32)) b)
        (FloatOps.mulf (FloatOps.subf (FloatOps.subf p n) g) (FloatOps.subf (FloatOps.subf p n) g))
        (FloatOps.ofBits (F := Ideal) .f32 0x00000000#32)
      = if (p - n - g : EReal) < 0 ∧ b = 1#1 then (p - n - g : EReal) * (p - n - g) else 0 := by
  simp only [Ideal.cmpf_def, Ideal.subf_def, Ideal.mulf_def, Ideal.ofBits_def, Ideal.ofBits_zero_f32]
  by_cases h : (p - n - g : EReal) < 0 ∧ b = 1#1
  · rw [if_pos h, IntOp.andi_eq_one.2 ⟨(rv_olt_zero _).2 h.1, h.2⟩, select_one]
  · rw [if_neg h, eq_zero_of_ne_one (fun hb => h ⟨(rv_olt_zero _).1 (IntOp.andi_eq_one.1 hb).1, (IntOp.andi_eq_one.1 hb).2⟩),
      select_zero]

/-- The validity bit of row `r`: the label's word differs from the zero word exactly when the label is not class `0`. -/
theorem rv_valid_bit (hy : ∀ r : Fin 8192, Y (ix1 r) = BitVec.ofNat 32 (yc r).val) (r : Fin 8192) :
    IntOp.cmpi .ne (Y (ix1 r)) 0#32 = 1#1 ↔ yc r ≠ 0 := by
  rw [hy r, IntOp.cmpi_ne]
  exact not_congr (Cert.Auc.ofNat_eq_iff (yc r) 0)

/-- The validity bit of a pair's index is read, through the two broadcasts down the rows, at the pair's row. -/
theorem rv_idx_valid (r q : Fin 8192) : idx_main_v45 (idx_main_v46 (ix2 r q)) = ix1 r :=
  funext fun a => Fin.ext (by match a with | ⟨0, _⟩ => rfl)

/-- The masked square at the pair (row `r`, row `q`) is the specification's term. -/
theorem rv_term (hy : ∀ r : Fin 8192, Y (ix1 r) = BitVec.ofNat 32 (yc r).val) (r q : Fin 8192) :
    val_main_v49 (F := Ideal) X Y (ix2 r q) = Cert.Auc.rterm (fun r k => X (ix2 r k)) yc r q := by
  -- the select, the conjunction of the two bits, the comparison with zero, the square and the two differences, each
  -- read at the pair's index; the positive is read at the pair's row, the negative at its column, the bit at its row
  rw [val_main_v49_apply, val_main_v47_apply, val_main_v48_apply, val_main_call1_v0_apply, val_main_cst_10_apply,
    val_main_v44_apply, val_main_v46_apply, val_main_v45_apply, val_main_v23_apply, val_main_v22_apply,
    val_main_c_4_apply, val_main_v42_apply, val_main_v43_apply, val_main_cst_9_apply, val_main_v41_apply,
    val_main_cst_8_apply, val_main_v40_apply, val_main_v38_apply, val_main_v39_apply, val_main_v36_apply,
    val_main_v37_apply, ref_pos X Y yc hy, ref_neg X Y yc hy, rv_idx_valid]
  refine (rv_sel (Cert.Auc.rpos (fun r k => X (ix2 r k)) yc r) (Cert.Auc.rneg (fun r k => X (ix2 r k)) yc q)
    (FloatOps.ofBits (F := Ideal) .f32 0x3E99999A#32) _).trans ?_
  -- what is left is the specification's term with the validity bit in place of "the label is not class 0"
  unfold Cert.Auc.rterm Cert.Auc.rmargin Cert.Auc.gama
  simp only [rv_valid_bit Y yc hy r, Ideal.ofBits_def]

/-- The reference's result is `rloss`. -/
theorem ref_value (hy : ∀ r : Fin 8192, Y (ix1 r) = BitVec.ofNat 32 (yc r).val) :
    Cert.ReferenceIdeal.Read.val_main_v57 (F := Ideal) X Y
      = fun _ : S_.Idx => Cert.Auc.rloss (fun r k => X (ix2 r k)) yc := by
  funext i
  -- the two quotients, the count plus one, 8192 plus one, and the total: zero plus the sum over every pair's index,
  -- taken as the double sum over the rows and the columns
  rw [val_main_v57_apply, val_main_v55_apply, val_main_v56_apply, val_main_v54_apply, val_main_v50_apply,
    val_main_cst_11_apply, val_main_cst_13_apply, val_main_cst_14_apply, val_main_cst_15_apply,
    ref_cnt Y yc hy, sum_idx2]
  simp only [rv_term X Y yc hy, Ideal.hostDivf_def, Ideal.addf_def, Ideal.ofBits_def, Ideal.ofBits_zero_f32, zero_add]
  unfold Cert.Auc.rloss Cert.Auc.rsum Cert.Auc.c1 Cert.Auc.c8192
  rfl

end Cert.Auc.R

end
-- ==== Proof.PreDecode.lean ====
/-
  What the precondition says of the two inputs: every logit is a real number, and every label is a class index.
-/
import proofs.«423340_j3289944948924_2_alg».proof.Pre_finite_inputs
import proofs.«423340_j3289944948924_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Auc

open Idealize.ShloMosaic Idealize.ShloMosaic.ValueIdx

/-- The shape of a scalar has exactly one index. -/
instance pre_scalar_idx_subsingleton : Subsingleton Cert.Pre_finite_inputs.S_.Idx :=
  ⟨fun a b => funext fun d => d.elim0⟩

/-- The binary32 word with all exponent bits set and no fraction bit is `+∞`. -/
theorem pre_inf_word : Ideal.ofBits .f32 0x7F800000#32 = (⊤ : EReal) := by
  simp [Ideal.ofBits, Ideal.ieee]

/-- An extended real whose absolute value `max x (-x)` is below `+∞` is neither infinity: it is a real. -/
theorem pre_real_of_abs_lt_top (x : EReal) (hx : max x (-x) < ⊤) : ∃ a : ℝ, x = (a : EReal) := by
  induction x using EReal.rec with
  | bot => simp at hx
  | coe a => exact ⟨a, rfl⟩
  | top => simp at hx

/-- A 32-bit word that is, read signed, at least `0` and below `2048` has an unsigned value below `2048`:
    a non-negative signed reading is the unsigned one. -/
theorem pre_word_of_range (w : BitVec 32) (h0 : (0#32).sle w = true) (h1 : w.slt 2048#32 = true) :
    w.toNat < 2048 := by
  have hw := BitVec.toInt_eq_toNat_cond w
  have z : (0#32).toInt = 0 := by decide
  have t : (2048#32).toInt = 2048 := by decide
  rw [BitVec.sle, decide_eq_true_eq, z] at h0
  rw [BitVec.slt, decide_eq_true_eq, t] at h1
  omega

/-- The precondition all ones means: every logit is finite (a real), and every label, read signed, lies in
    `[0, 2048)`, so it is the word of a class index. -/
theorem pre_decode [Cert.Pre_finite_inputs.Facts]
    (X : FVec Ideal Cert.Pre_finite_inputs.S8192x2048 .f32) (Y : IVec Cert.Pre_finite_inputs.S8192 32)
    (h : Cert.Pre_finite_inputs.fn (F := Ideal) X Y = fun _ => 1#1) :
    (∀ i, ∃ a : ℝ, X i = (a : EReal))
      ∧ ∃ yc : Fin 8192 → Fin 2048, ∀ r : Fin 8192, Y (ix1 r) = BitVec.ofNat 32 (yc r).val := by
  -- the predicate at its one index is the conjunction of three "for all" reductions
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  -- each reduction by "and" that came out 1 met a 1 at every element
  have e1 := fun i => Host.reduce_andi_all _ _ _ _ _ h1 i
  have e2 := fun i => Host.reduce_andi_all _ _ _ _ _ h2 i
  have e3 := fun i => Host.reduce_andi_all _ _ _ _ _ h3 i
  refine ⟨fun i => ?_, ?_⟩
  · -- |X i| < +∞, so X i is a real
    have e := e1 i
    change Ideal.cmp .olt (max (X i) (-(X i))) (Ideal.ofBits .f32 0x7F800000#32) = 1#1 at e
    rw [pre_inf_word] at e
    change BitVec.ofBool (decide (max (X i) (-(X i)) < ⊤)) = 1#1 at e
    exact pre_real_of_abs_lt_top _ (of_decide_eq_true ((StableHlo.Predicate.ofBool_eq_one_iff _).1 e))
  · -- 0 ≤ Y r and Y r < 2048, both signed: the label is the word of its own unsigned value, a class index
    have f2 : ∀ r : Fin 8192, (0#32).sle (Y (ix1 r)) = true := fun r => by
      have e := e2 (ix1 r)
      change BitVec.ofBool ((0#32).sle (Y (ix1 r))) = 1#1 at e
      exact (StableHlo.Predicate.ofBool_eq_one_iff _).1 e
    have f3 : ∀ r : Fin 8192, (Y (ix1 r)).slt 2048#32 = true := fun r => by
      have e := e3 (ix1 r)
      change BitVec.ofBool ((Y (ix1 r)).slt 2048#32) = 1#1 at e
      exact (StableHlo.Predicate.ofBool_eq_one_iff _).1 e
    refine ⟨fun r => ⟨(Y (ix1 r)).toNat, pre_word_of_range _ (f2 r) (f3 r)⟩, fun r => ?_⟩
    show Y (ix1 r) = BitVec.ofNat 32 (Y (ix1 r)).toNat
    rw [BitVec.ofNat_toNat, BitVec.setWidth_eq]

end Cert.Auc

end
-- ==== Proof.Math.lean ====
/-
  The two losses are one function of the logits and the labels, when every logit is a real number.

  The road. The logistic function is increasing on the extended reals and takes its values in [0, 1], so it
  commutes with a maximum: the logistic of the largest unmasked logit (masked ones filled with the bottom
  element) is the largest unmasked logistic (masked ones filled with the logistic of the bottom element, 0),
  and starting that maximum from 0 or from the bottom element is the same because the unknown class is always
  masked and contributes a 0. The labelled logit picked out by a sum of selected logits is the labelled logit.
  So both programs see the same two real numbers p (of row r) and n (of row q), both in [0, 1]. On a valid row
  the squared negative part of (p - γ) - n is the squared margin p - n - γ where that is negative and 0 elsewhere;
  on an invalid row the kernel's stand-in 10^9 is at least n, so the negative part vanishes, as the reference's
  term does. The four groups of 2048 rows are all 8192 rows, and 8192 + 1 is 8193.
-/
import proofs.«423340_j3289944948924_2_alg».proof.Proof.Spec
import Mathlib.Data.EReal.Operations
import Mathlib.Data.Finset.Fold
import Mathlib.Data.Fintype.BigOperators
import Mathlib.Order.MinMax
import Mathlib.Algebra.BigOperators.Group.Finset.Piecewise
import Mathlib.Algebra.BigOperators.Group.Finset.Defs
import Mathlib.Algebra.Order.GroupWithZero.Basic
import Mathlib.Analysis.Complex.Exponential

noncomputable section

open scoped BigOperators

namespace Cert.Auc

open Idealize.ShloMosaic

/-! ## The constants -/

/-- The word `0x3F800000` is `1`. -/
theorem c1_eq : c1 = ((1 : ℝ) : EReal) := by
  simp [c1, Ideal.ofBits, Ideal.ieee]
  rw [← EReal.coe_mul, ← EReal.coe_one, EReal.coe_eq_coe_iff]
  norm_num

/-- The word `0x46000000` is `8192`. -/
theorem c8192_eq : c8192 = ((8192 : ℝ) : EReal) := by
  simp [c8192, Ideal.ofBits, Ideal.ieee]
  rw [← EReal.coe_mul, EReal.coe_eq_coe_iff]
  norm_num

/-- The word `0x46000400` is `8193`. -/
theorem c8193_eq : c8193 = ((8193 : ℝ) : EReal) := by
  simp [c8193, Ideal.ofBits, Ideal.ieee]
  rw [← EReal.coe_mul, EReal.coe_eq_coe_iff]
  norm_num

/-- The word `0x4E6E6B28` is `15625000 · 2^6 = 10^9`. -/
theorem big_eq : big = ((1000000000 : ℝ) : EReal) := by
  simp [big, Ideal.ofBits, Ideal.ieee]
  norm_cast

/-- The margin is a real number (`10066330 / 2^25`, the binary32 value nearest `0.3`). -/
theorem gama_eq : gama = ((10066330 * (2 ^ 25)⁻¹ : ℝ) : EReal) := by
  simp [gama, Ideal.ofBits, Ideal.ieee]

/-- The two spellings of the last divisor: `8192 + 1 = 8193`. -/
theorem c8192_add_c1 : c8192 + c1 = c8193 := by
  rw [c8192_eq, c1_eq, c8193_eq, ← EReal.coe_add, EReal.coe_eq_coe_iff]
  norm_num

/-! ## The logistic function on the extended reals -/

/-- The logistic function is nonnegative. -/
theorem logistic_nonneg (a : EReal) : 0 ≤ Ideal.logistic a := by
  induction a using EReal.rec with
  | bot => rw [Ideal.logistic_bot]
  | coe s =>
    rw [Ideal.logistic_coe]
    exact EReal.coe_nonneg.mpr (inv_nonneg.mpr (add_nonneg zero_le_one (Real.exp_pos _).le))
  | top => rw [Ideal.logistic_top]; exact zero_le_one

/-- The logistic function is at most one. -/
theorem logistic_le_one (a : EReal) : Ideal.logistic a ≤ 1 := by
  induction a using EReal.rec with
  | bot => rw [Ideal.logistic_bot]; exact zero_le_one
  | coe s =>
    rw [Ideal.logistic_coe, ← EReal.coe_one, EReal.coe_le_coe_iff]
    exact inv_le_one_of_one_le₀ (le_add_of_nonneg_right (Real.exp_pos _).le)
  | top => rw [Ideal.logistic_top]

/-- The logistic function is increasing: on the reals `t ↦ (1 + e^(-t))⁻¹` is, and its values at the two
    infinities are its bounds `0` and `1`. -/
theorem logistic_mono : Monotone Ideal.logistic := by
  intro a b hab
  induction b using EReal.rec with
  | bot => rw [le_bot_iff.mp hab]
  | top => rw [Ideal.logistic_top]; exact logistic_le_one a
  | coe t =>
    induction a using EReal.rec with
    | bot => rw [Ideal.logistic_bot]; exact logistic_nonneg _
    | top => exact absurd hab (not_le.mpr (EReal.coe_lt_top t))
    | coe s =>
      rw [Ideal.logistic_coe, Ideal.logistic_coe, EReal.coe_le_coe_iff]
      have hst : s ≤ t := EReal.coe_le_coe_iff.mp hab
      have hexp : Real.exp (-t) ≤ Real.exp (-s) := Real.exp_le_exp.mpr (neg_le_neg hst)
      exact inv_anti₀ (add_pos_of_pos_of_nonneg zero_lt_one (Real.exp_pos _).le) (by linarith)

/-! ## The two per-row quantities -/

section
variable (x : Fin 8192 → Fin 2048 → EReal) (yc : Fin 8192 → Fin 2048)

/-- The sum of the logits selected by "class = label" is the labelled logit. -/
theorem kpos_eq_rpos (r : Fin 8192) : kpos x yc r = rpos x yc r := by
  unfold kpos rpos
  rw [Finset.sum_ite_eq' Finset.univ (yc r) (fun c => x r c), if_pos (Finset.mem_univ _)]

/-- The logistic of the masked maximum is the masked maximum of the logistics. -/
theorem kneg_eq_rneg (q : Fin 8192) : kneg x yc q = rneg x yc q := by
  unfold kneg rneg
  have hhom := Finset.fold_hom (op := max) (op' := max) (s := (Finset.univ : Finset (Fin 2048)))
    (b := (⊥ : EReal)) (m := Ideal.logistic) (f := fun c => if c = yc q ∨ c = 0 then ⊥ else x q c)
    (fun _ _ => logistic_mono.map_max)
  rw [← hhom, Ideal.logistic_bot]
  have hfun : (fun c : Fin 2048 => Ideal.logistic (if c = yc q ∨ c = 0 then ⊥ else x q c))
      = fun c => if c = yc q ∨ c = 0 then 0 else Ideal.logistic (x q c) := by
    funext c
    by_cases h : c = yc q ∨ c = 0
    · rw [if_pos h, if_pos h, Ideal.logistic_bot]
    · rw [if_neg h, if_neg h]
  rw [hfun]
  have hmem : ∀ c : Fin 2048, (if c = yc q ∨ c = 0 then (0 : EReal) else Ideal.logistic (x q c))
      ≤ (Finset.univ : Finset (Fin 2048)).fold max ⊥
          fun c => if c = yc q ∨ c = 0 then 0 else Ideal.logistic (x q c) :=
    fun c => (Finset.le_fold_max _).mpr (Or.inr ⟨c, Finset.mem_univ _, le_rfl⟩)
  apply le_antisymm
  · rw [Finset.fold_max_le]
    refine ⟨?_, fun c _ => hmem c⟩
    have h0 := hmem 0
    rwa [if_pos (Or.inr rfl)] at h0
  · rw [Finset.fold_max_le]
    exact ⟨bot_le, fun c _ => (Finset.le_fold_max _).mpr (Or.inr ⟨c, Finset.mem_univ _, le_rfl⟩)⟩

/-- The unknown class is masked and contributes `0` to the reference's maximum. -/
theorem rneg_nonneg (q : Fin 8192) : 0 ≤ rneg x yc q := by
  unfold rneg
  refine (Finset.le_fold_max _).mpr (Or.inr ⟨0, Finset.mem_univ _, ?_⟩)
  rw [if_pos (Or.inr rfl)]

/-- Every element of the reference's maximum is at most `1`. -/
theorem rneg_le_one (q : Fin 8192) : rneg x yc q ≤ 1 := by
  unfold rneg
  rw [Finset.fold_max_le]
  refine ⟨bot_le, fun c _ => ?_⟩
  by_cases h : c = yc q ∨ c = 0
  · rw [if_pos h]; exact zero_le_one
  · rw [if_neg h]; exact logistic_le_one _

/-- So the reference's maximum is a real number of `[0, 1]`. -/
theorem rneg_real (q : Fin 8192) : ∃ n : ℝ, rneg x yc q = (n : EReal) ∧ n ≤ 1 := by
  have h0 := rneg_nonneg x yc q
  have h1 := rneg_le_one x yc q
  have hbot : rneg x yc q ≠ ⊥ := (EReal.bot_lt_zero.trans_le h0).ne'
  have htop : rneg x yc q ≠ ⊤ := (h1.trans_lt (EReal.coe_lt_top 1)).ne
  refine ⟨(rneg x yc q).toReal, (EReal.coe_toReal htop hbot).symm, ?_⟩
  have h1' := h1
  rw [← EReal.coe_toReal htop hbot, ← EReal.coe_one, EReal.coe_le_coe_iff] at h1'
  exact h1'

/-- The logistic of a real logit is a real number. -/
theorem rpos_real (hx : ∀ r c, ∃ a : ℝ, x r c = (a : EReal)) (r : Fin 8192) :
    ∃ p : ℝ, rpos x yc r = (p : EReal) := by
  obtain ⟨a, ha⟩ := hx r (yc r)
  exact ⟨_, by rw [rpos, ha, Ideal.logistic_coe]⟩

end

/-! ## One pair of rows -/

/-- On real numbers, the squared negative part of `(p - g) - n` is the squared margin `p - n - g` where the
    margin is negative, and `0` elsewhere. -/
theorem pair_valid (p n g : ℝ) :
    min ((p : EReal) - g - n) 0 * min ((p : EReal) - g - n) 0
      = if (p : EReal) - n - g < 0 then ((p : EReal) - n - g) * ((p : EReal) - n - g) else 0 := by
  have e1 : (p : EReal) - g - n = ((p - n - g : ℝ) : EReal) := by
    rw [← EReal.coe_sub, ← EReal.coe_sub, EReal.coe_eq_coe_iff]; ring
  have e2 : (p : EReal) - n - g = ((p - n - g : ℝ) : EReal) := by
    rw [← EReal.coe_sub, ← EReal.coe_sub]
  rw [e1, e2]
  by_cases h : p - n - g < 0
  · have h' : ((p - n - g : ℝ) : EReal) < 0 := EReal.coe_neg'.mpr h
    rw [if_pos h', min_eq_left h'.le]
  · have h' : ¬ ((p - n - g : ℝ) : EReal) < 0 := fun hh => h (EReal.coe_neg'.mp hh)
    rw [if_neg h', min_eq_right (not_lt.mp h'), mul_zero]

/-- A stand-in that is at least `1` leaves no negative part against a number that is at most `1`. -/
theorem pair_invalid (B n : ℝ) (hB : 1 ≤ B) (hn : n ≤ 1) :
    min ((B : EReal) - n) 0 * min ((B : EReal) - n) 0 = 0 := by
  have h : (0 : EReal) ≤ (B : EReal) - n := by
    rw [← EReal.coe_sub]; exact EReal.coe_nonneg.mpr (by linarith)
  rw [min_eq_right h, mul_zero]

/-- The kernel's term of the pair (row `r`, row `q`) is the reference's. -/
theorem term_eq (x : Fin 8192 → Fin 2048 → EReal) (yc : Fin 8192 → Fin 2048)
    (hx : ∀ r c, ∃ a : ℝ, x r c = (a : EReal)) (r q : Fin 8192) :
    min (kadj x yc r - kneg x yc q) 0 * min (kadj x yc r - kneg x yc q) 0 = rterm x yc r q := by
  obtain ⟨p, hp⟩ := rpos_real x yc hx r
  obtain ⟨n, hn, hn1⟩ := rneg_real x yc q
  rw [kneg_eq_rneg, hn]
  unfold rterm rmargin kadj
  rw [kpos_eq_rpos, hp, hn]
  by_cases hv : yc r ≠ 0
  · rw [if_pos hv, gama_eq]
    refine (pair_valid p n _).trans ?_
    exact if_congr (and_iff_left hv).symm rfl rfl
  · rw [if_neg hv, if_neg (fun h => hv h.2), big_eq]
    exact pair_invalid _ n (by norm_num) hn1

/-! ## The four groups of 2048 rows are the 8192 rows -/

/-- A sum over the rows taken in four groups of 2048 is the sum over all rows: `(jb, l) ↦ jb · 2048 + l` is a
    bijection, with inverse `q ↦ (q / 2048, q % 2048)`. -/
theorem sum_col (t : Fin 8192 → EReal) :
    ∑ jb : Fin 4, ∑ l : Fin 2048, t (col jb l) = ∑ q : Fin 8192, t q := by
  rw [← Fintype.sum_prod_type' (fun (jb : Fin 4) (l : Fin 2048) => t (col jb l))]
  refine Fintype.sum_equiv
    { toFun := fun p => col p.1 p.2
      invFun := fun q => (⟨q.val / 2048, by omega⟩, ⟨q.val % 2048, by omega⟩)
      left_inv := ?_
      right_inv := ?_ } _ _ (fun _ => rfl)
  · rintro ⟨⟨a, ha⟩, ⟨b, hb⟩⟩
    refine Prod.ext (Fin.ext ?_) (Fin.ext ?_)
    · show (a * 2048 + b) / 2048 = a
      omega
    · show (a * 2048 + b) % 2048 = b
      omega
  · rintro ⟨q, hq⟩
    refine Fin.ext ?_
    show q / 2048 * 2048 + q % 2048 = q
    omega

/-! ## The losses -/

/-- The kernel's loss is the reference's. -/
theorem kloss_eq_rloss (x : Fin 8192 → Fin 2048 → EReal) (yc : Fin 8192 → Fin 2048)
    (hx : ∀ r c, ∃ a : ℝ, x r c = (a : EReal)) : kloss x yc = rloss x yc := by
  have hsum : ∑ r : Fin 8192, rowAcc (kadj x yc) (kneg x yc) r = rsum x yc := by
    unfold rsum rowAcc
    refine Finset.sum_congr rfl fun r _ => ?_
    refine (sum_col fun q => min (kadj x yc r - kneg x yc q) 0 * min (kadj x yc r - kneg x yc q) 0).trans ?_
    exact Finset.sum_congr rfl fun q _ => term_eq x yc hx r q
  unfold kloss rloss
  rw [hsum, c8192_add_c1]

end Cert.Auc

end
-- ==== Proof.lean ====
/-
  The certificate of a pairwise margin loss: `Cert.Claim`.

  The kernel takes the logistic of two row reductions of the raw logits (the labelled logit, and the largest
  logit outside the label and the unknown class, the masked classes filled with a constant that stands for `-∞`
  and is named so: the one ledger entry), then accumulates, over blocks of row pairs, the squared negative parts of
  `adj r - neg q`; the reference takes the logistic of every logit first, fills the masked classes with `0`, and
  sums the squared negative margins of the valid rows over all pairs. Both divide by the count of valid rows
  plus one and by 8193.

  The logistic is increasing, so it commutes with the row maximum, and the logistic of `-∞` is the reference's
  fill `0`; the labelled logit is picked by a sum of selected logits because the label is a class index (the
  precondition's second part); an invalid row contributes nothing on either side because `neg ≤ 1 ≤ 10⁹`; the sums
  differ by grouping only. The frames are the generated ones; the kernel's run with its result named, the values
  of its two regions, of its host operations and of the reference, the decoding of the precondition and the
  mathematics joining the two losses are the modules imported below.
-/
import proofs.«423340_j3289944948924_2_alg».proof.Defs
import proofs.«423340_j3289944948924_2_alg».proof.Proof.Gen.Kernel
import proofs.«423340_j3289944948924_2_alg».proof.Proof.Gen.Kernel.Skeleton
import proofs.«423340_j3289944948924_2_alg».proof.Proof.Gen.Kernel.Launch
import proofs.«423340_j3289944948924_2_alg».proof.Proof.Gen.Kernel.Points
import proofs.«423340_j3289944948924_2_alg».proof.Proof.Gen.Kernel.Frame
import proofs.«423340_j3289944948924_2_alg».proof.Proof.Gen.KernelIdeal
import proofs.«423340_j3289944948924_2_alg».proof.Proof.Gen.KernelIdeal.Skeleton
import proofs.«423340_j3289944948924_2_alg».proof.Proof.Gen.KernelIdeal.Launch
import proofs.«423340_j3289944948924_2_alg».proof.Proof.Gen.KernelIdeal.Points
import proofs.«423340_j3289944948924_2_alg».proof.Proof.Gen.KernelIdeal.Frame
import proofs.«423340_j3289944948924_2_alg».proof.Proof.Gen.ReferenceIdeal
import proofs.«423340_j3289944948924_2_alg».proof.Proof.Gen.ReferenceIdeal.Run
import proofs.«423340_j3289944948924_2_alg».proof.Proof.Gen.ReferenceIdeal.Read
import proofs.«423340_j3289944948924_2_alg».proof.Proof.Gen.Pre_finite_inputs
import proofs.«423340_j3289944948924_2_alg».proof.Proof.KRun
import proofs.«423340_j3289944948924_2_alg».proof.Proof.KHost
import proofs.«423340_j3289944948924_2_alg».proof.Proof.RVal
import proofs.«423340_j3289944948924_2_alg».proof.Proof.PreDecode
import proofs.«423340_j3289944948924_2_alg».proof.Proof.Math
import Idealize.ShloMosaic.Adequacy
import Idealize.ShloMosaic.Init

noncomputable section

namespace Cert.Proof

open Idealize.ShloMosaic Idealize.SL.Sem Idealize.ShloMosaic.ValueIdx

section
variable [Cert.Kernel.Facts] [Cert.KernelIdeal.Facts] [Cert.ReferenceIdeal.Facts] [Cert.Pre_finite_inputs.Facts]

theorem frame_p : Cert.frame_Kernel := fun m ρ _ => Cert.Kernel.Gen.frame m ρ

theorem frame_pi : Cert.frame_KernelIdeal := fun m ρ _ => Cert.KernelIdeal.Gen.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the fill constant of the masked classes is named, and the name denotes `⊥`. -/
theorem preserves : Cert.preserves_Kernel_KernelIdeal :=
  IdealRules.named_const.statement Cert.KernelIdeal.κ "neg_big" .f32 0xFF61B1E6#32 ⊥ rfl

/-- Both programs end at one loss: the kernel at `kloss` of the launched logits and the label indices the
    precondition provides, the reference at `rloss` of the same, and the two are equal when the logits are reals. -/
theorem algebraic : Cert.algebraic_KernelIdeal_ReferenceIdeal := by
  intro m ρ m' ρ' hpre hagree
  have hd := fun c : Dev Cert.KernelIdeal.nD =>
    Cert.Auc.pre_decode (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (hpre c)
  choose hx yc hyc using hd
  refine ⟨fun c => fun _ => Cert.Auc.kloss (Cert.Auc.KH.xf m c) (yc c), ?_, ?_⟩
  · exact (θ_run Cert.KernelIdeal.defs _ _).mono
      (fun r h c => ⟨(h c).1.trans (Cert.Auc.KH.kernel_value m ρ (yc c) c (hyc c)), (h c).2⟩)
      (Cert.KernelIdeal.Gen.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v57_eq m' c, (hagree c).1, (hagree c).2,
      Cert.Auc.R.ref_value _ _ (yc c) (hyc c),
      ← Cert.Auc.kloss_eq_rloss _ (yc c) (fun r k => hx c (ix2 r k))]
    rfl

end

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
